-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S16384x896 : Shape := ⟨2, ![16384, 896]⟩
abbrev S16384x1 : Shape := ⟨2, ![16384, 1]⟩
abbrev S2688x896 : Shape := ⟨2, ![2688, 896]⟩
abbrev S1344x2 : Shape := ⟨2, ![1344, 2]⟩
abbrev S1344x3 : Shape := ⟨2, ![1344, 3]⟩
abbrev S896 : Shape := ⟨1, ![896]⟩
abbrev S448x448 : Shape := ⟨2, ![448, 448]⟩
abbrev S448 : Shape := ⟨1, ![448]⟩
abbrev S256x448 : Shape := ⟨2, ![256, 448]⟩
abbrev S256 : Shape := ⟨1, ![256]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel
  bcast_S_S16384x896 : S_.BroadcastsInDim S16384x896 (![] : Fin 0 → Fin S16384x896.rank)
  reducesTo_S16384x896_S_d0_1 : S16384x896.ReducesTo [0, 1] S_
  bcast_S_S16384x1 : S_.BroadcastsInDim S16384x1 (![] : Fin 0 → Fin S16384x1.rank)
  reducesTo_S16384x1_S_d0_1 : S16384x1.ReducesTo [0, 1] S_
  bcast_S_S2688x896 : S_.BroadcastsInDim S2688x896 (![] : Fin 0 → Fin S2688x896.rank)
  reducesTo_S2688x896_S_d0_1 : S2688x896.ReducesTo [0, 1] S_
  bcast_S_S1344x2 : S_.BroadcastsInDim S1344x2 (![] : Fin 0 → Fin S1344x2.rank)
  reducesTo_S1344x2_S_d0_1 : S1344x2.ReducesTo [0, 1] S_
  bcast_S_S1344x3 : S_.BroadcastsInDim S1344x3 (![] : Fin 0 → Fin S1344x3.rank)
  reducesTo_S1344x3_S_d0_1 : S1344x3.ReducesTo [0, 1] S_
  bcast_S_S896 : S_.BroadcastsInDim S896 (![] : Fin 0 → Fin S896.rank)
  reducesTo_S896_S_d0 : S896.ReducesTo [0] S_
  bcast_S_S448x448 : S_.BroadcastsInDim S448x448 (![] : Fin 0 → Fin S448x448.rank)
  reducesTo_S448x448_S_d0_1 : S448x448.ReducesTo [0, 1] S_
  bcast_S_S448 : S_.BroadcastsInDim S448 (![] : Fin 0 → Fin S448.rank)
  reducesTo_S448_S_d0 : S448.ReducesTo [0] S_
  bcast_S_S256x448 : S_.BroadcastsInDim S256x448 (![] : Fin 0 → Fin S256x448.rank)
  reducesTo_S256x448_S_d0_1 : S256x448.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg14 : FVec F S448 .f32) (main_arg15 : FVec F S256x448 .f32) (main_arg16 : FVec F S256 .f32) (main_v63 : IVec S_ 1) (main_v67 : IVec S_ 1) : IVec S_ 1 :=
  let main_v68 : IVec S_ 1 := andi main_v63 main_v67
  let main_v69 : FVec F S448 .f32 := Host.absf main_arg14
  let main_cst_26 : FVec F S_ .f32 := constant S_ .f32 0x7F800000#32
  let main_v70 : FVec F S448 .f32 := broadcastInDim S448 ![] bcast_S_S448 main_cst_26
  let main_v71 : IVec S448 1 := cmpf .olt main_v69 main_v70
  let main_c_27 : IVec S_ 1 := constantI S_ 1 1#1
  let main_v72 : IVec S_ 1 := (fun x v => Host.reduce IntOp.andi x v reducesTo_S448_S_d0 h_S_) main_v71 main_c_27
  let main_v73 : IVec S_ 1 := andi main_v68 main_v72
  let main_v74 : FVec F S256x448 .f32 := Host.absf main_arg15
  let main_cst_28 : FVec F S_ .f32 := constant S_ .f32 0x7F800000#32
  let main_v75 : FVec F S256x448 .f32 := broadcastInDim S256x448 ![] bcast_S_S256x448 main_cst_28
  let main_v76 : IVec S256x448 1 := cmpf .olt main_v74 main_v75
  let main_c_29 : IVec S_ 1 := constantI S_ 1 1#1
  let main_v77 : IVec S_ 1 := (fun x v => Host.reduce IntOp.andi x v reducesTo_S256x448_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  main_v83

def fn_part3 {F : FTy → Type} [FloatOps F] (main_arg11 : FVec F S256x448 .f32) (main_arg12 : FVec F S256 .f32) (main_arg13 : FVec F S448x448 .f32) (main_arg14 : FVec F S448 .f32) (main_arg15 : FVec F S256x448 .f32) (main_arg16 : FVec F S256 .f32) (main_v48 : IVec S_ 1) (main_v49 : FVec F S448 .f32) (main_v50 : FVec F S448 .f32) : IVec S_ 1 :=
  let main_v51 : IVec S448 1 := cmpf .olt main_v49 main_v50
  let main_c_19 : IVec S_ 1 := constantI S_ 1 1#1
  let main_v52 : IVec S_ 1 := (fun x v => Host.reduce IntOp.andi x v reducesTo_S448_S_d0 h_S_) main_v51 main_c_19
  let main_v53 : IVec S_ 1 := andi main_v48 main_v52
  let main_v54 : FVec F S256x448 .f32 := Host.absf main_arg11
  let main_cst_20 : FVec F S_ .f32 := constant S_ .f32 0x7F800000#32
  let main_v55 : FVec F S256x448 .f32 := broadcastInDim S256x448 ![] bcast_S_S256x448 main_cst_20
  let main_v56 : IVec S256x448 1 := cmpf .olt main_v54 main_v55
  let main_c_21 : IVec S_ 1 := constantI S_ 1 1#1
  let main_v57 : IVec S_ 1 := (fun x v => Host.reduce IntOp.andi x v reducesTo_S256x448_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S448x448 .f32 := Host.absf main_arg13
  let main_cst_24 : FVec F S_ .f32 := constant S_ .f32 0x7F800000#32
  let main_v65 : FVec F S448x448 .f32 := broadcastInDim S448x448 ![] bcast_S_S448x448 main_cst_24
  let main_v66 : IVec S448x448 1 := cmpf .olt main_v64 main_v65
  let main_c_25 : IVec S_ 1 := constantI S_ 1 1#1
  let main_v67 : IVec S_ 1 := (fun x v => Host.reduce IntOp.andi x v reducesTo_S448x448_S_d0_1 h_S_) main_v66 main_c_25
  fn_part4 (F := F) main_arg14 main_arg15 main_arg16 main_v63 main_v67

def fn_part2 {F : FTy → Type} [FloatOps F] (main_arg7 : FVec F S896 .f32) (main_arg8 : FVec F S896 .f32) (main_arg9 : FVec F S448x448 .f32) (main_arg10 : FVec F S448 .f32) (main_arg11 : FVec F S256x448 .f32) (main_arg12 : FVec F S256 .f32) (main_arg13 : FVec F S448x448 .f32) (main_arg14 : FVec F S448 .f32) (main_arg15 : FVec F S256x448 .f32) (main_arg16 : FVec F S256 .f32) (main_v33 : IVec S_ 1) : IVec S_ 1 :=
  let main_v34 : FVec F S896 .f32 := Host.absf main_arg7
  let main_cst_12 : FVec F S_ .f32 := constant S_ .f32 0x7F800000#32
  let main_v35 : FVec F S896 .f32 := broadcastInDim S896 ![] bcast_S_S896 main_cst_12
  let main_v36 : IVec S896 1 := cmpf .olt main_v34 main_v35
  let main_c_13 : IVec S_ 1 := constantI S_ 1 1#1
  let main_v37 : IVec S_ 1 := (fun x v => Host.reduce IntOp.andi x v reducesTo_S896_S_d0 h_S_) main_v36 main_c_13
  let main_v38 : IVec S_ 1 := andi main_v33 main_v37
  let main_v39 : FVec F S896 .f32 := Host.absf main_arg8
  let main_cst_14 : FVec F S_ .f32 := constant S_ .f32 0x7F800000#32
  let main_v40 : FVec F S896 .f32 := broadcastInDim S896 ![] bcast_S_S896 main_cst_14
  let main_v41 : IVec S896 1 := cmpf .olt main_v39 main_v40
  let main_c_15 : IVec S_ 1 := constantI S_ 1 1#1
  let main_v42 : IVec S_ 1 := (fun x v => Host.reduce IntOp.andi x v reducesTo_S896_S_d0 h_S_) main_v41 main_c_15
  let main_v43 : IVec S_ 1 := andi main_v38 main_v42
  let main_v44 : FVec F S448x448 .f32 := Host.absf main_arg9
  let main_cst_16 : FVec F S_ .f32 := constant S_ .f32 0x7F800000#32
  let main_v45 : FVec F S448x448 .f32 := broadcastInDim S448x448 ![] bcast_S_S448x448 main_cst_16
  let main_v46 : IVec S448x448 1 := cmpf .olt main_v44 main_v45
  let main_c_17 : IVec S_ 1 := constantI S_ 1 1#1
  let main_v47 : IVec S_ 1 := (fun x v => Host.reduce IntOp.andi x v reducesTo_S448x448_S_d0_1 h_S_) main_v46 main_c_17
  let main_v48 : IVec S_ 1 := andi main_v43 main_v47
  let main_v49 : FVec F S448 .f32 := Host.absf main_arg10
  let main_cst_18 : FVec F S_ .f32 := constant S_ .f32 0x7F800000#32
  let main_v50 : FVec F S448 .f32 := broadcastInDim S448 ![] bcast_S_S448 main_cst_18
  fn_part3 (F := F) main_arg11 main_arg12 main_arg13 main_arg14 main_arg15 main_arg16 main_v48 main_v49 main_v50

def fn_part1 {F : FTy → Type} [FloatOps F] (main_arg4 : FVec F S1344x2 .f32) (main_arg5 : FVec F S1344x3 .f32) (main_arg6 : FVec F S896 .f32) (main_arg7 : FVec F S896 .f32) (main_arg8 : FVec F S896 .f32) (main_arg9 : FVec F S448x448 .f32) (main_arg10 : FVec F S448 .f32) (main_arg11 : FVec F S256x448 .f32) (main_arg12 : FVec F S256 .f32) (main_arg13 : FVec F S448x448 .f32) (main_arg14 : FVec F S448 .f32) (main_arg15 : FVec F S256x448 .f32) (main_arg16 : FVec F S256 .f32) (main_v13 : IVec S_ 1) (main_v16 : IVec S2688x896 1) : IVec S_ 1 :=
  let main_c_5 : IVec S_ 1 := constantI S_ 1 1#1
  let main_v17 : IVec S_ 1 := (fun x v => Host.reduce IntOp.andi x v reducesTo_S2688x896_S_d0_1 h_S_) main_v16 main_c_5
  let main_v18 : IVec S_ 1 := andi main_v13 main_v17
  let main_v19 : FVec F S1344x2 .f32 := Host.absf main_arg4
  let main_cst_6 : FVec F S_ .f32 := constant S_ .f32 0x7F800000#32
  let main_v20 : FVec F S1344x2 .f32 := broadcastInDim S1344x2 ![] bcast_S_S1344x2 main_cst_6
  let main_v21 : IVec S1344x2 1 := cmpf .olt main_v19 main_v20
  let main_c_7 : IVec S_ 1 := constantI S_ 1 1#1
  let main_v22 : IVec S_ 1 := (fun x v => Host.reduce IntOp.andi x v reducesTo_S1344x2_S_d0_1 h_S_) main_v21 main_c_7
  let main_v23 : IVec S_ 1 := andi main_v18 main_v22
  let main_v24 : FVec F S1344x3 .f32 := Host.absf main_arg5
  let main_cst_8 : FVec F S_ .f32 := constant S_ .f32 0x7F800000#32
  let main_v25 : FVec F S1344x3 .f32 := broadcastInDim S1344x3 ![] bcast_S_S1344x3 main_cst_8
  let main_v26 : IVec S1344x3 1 := cmpf .olt main_v24 main_v25
  let main_c_9 : IVec S_ 1 := constantI S_ 1 1#1
  let main_v27 : IVec S_ 1 := (fun x v => Host.reduce IntOp.andi x v reducesTo_S1344x3_S_d0_1 h_S_) main_v26 main_c_9
  let main_v28 : IVec S_ 1 := andi main_v23 main_v27
  let main_v29 : FVec F S896 .f32 := Host.absf main_arg6
  let main_cst_10 : FVec F S_ .f32 := constant S_ .f32 0x7F800000#32
  let main_v30 : FVec F S896 .f32 := broadcastInDim S896 ![] bcast_S_S896 main_cst_10
  let main_v31 : IVec S896 1 := cmpf .olt main_v29 main_v30
  let main_c_11 : IVec S_ 1 := constantI S_ 1 1#1
  let main_v32 : IVec S_ 1 := (fun x v => Host.reduce IntOp.andi x v reducesTo_S896_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S16384x2 .f32) (main_arg1 : FVec F S16384x896 .f32) (main_arg2 : FVec F S16384x1 .f32) (main_arg3 : FVec F S2688x896 .f32) (main_arg4 : FVec F S1344x2 .f32) (main_arg5 : FVec F S1344x3 .f32) (main_arg6 : FVec F S896 .f32) (main_arg7 : FVec F S896 .f32) (main_arg8 : FVec F S896 .f32) (main_arg9 : FVec F S448x448 .f32) (main_arg10 : FVec F S448 .f32) (main_arg11 : FVec F S256x448 .f32) (main_arg12 : FVec F S256 .f32) (main_arg13 : FVec F S448x448 .f32) (main_arg14 : FVec F S448 .f32) (main_arg15 : FVec F S256x448 .f32) (main_arg16 : FVec F S256 .f32) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  let main_v4 : FVec F S16384x896 .f32 := Host.absf main_arg1
  let main_cst_0 : FVec F S_ .f32 := constant S_ .f32 0x7F800000#32
  let main_v5 : FVec F S16384x896 .f32 := broadcastInDim S16384x896 ![] bcast_S_S16384x896 main_cst_0
  let main_v6 : IVec S16384x896 1 := cmpf .olt main_v4 main_v5
  let main_c_1 : IVec S_ 1 := constantI S_ 1 1#1
  let main_v7 : IVec S_ 1 := (fun x v => Host.reduce IntOp.andi x v reducesTo_S16384x896_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S2688x896 .f32 := Host.absf main_arg3
  let main_cst_4 : FVec F S_ .f32 := constant S_ .f32 0x7F800000#32
  let main_v15 : FVec F S2688x896 .f32 := broadcastInDim S2688x896 ![] bcast_S_S2688x896 main_cst_4
  let main_v16 : IVec S2688x896 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S16384x2 : Shape := ⟨2, ![16384, 2]⟩
abbrev S16384x896 : Shape := ⟨2, ![16384, 896]⟩
abbrev S16384x1 : Shape := ⟨2, ![16384, 1]⟩
abbrev S2688x896 : Shape := ⟨2, ![2688, 896]⟩
abbrev S1344x2 : Shape := ⟨2, ![1344, 2]⟩
abbrev S1344x3 : Shape := ⟨2, ![1344, 3]⟩
abbrev S896 : Shape := ⟨1, ![896]⟩
abbrev S448x448 : Shape := ⟨2, ![448, 448]⟩
abbrev S448 : Shape := ⟨1, ![448]⟩
abbrev S256x448 : Shape := ⟨2, ![256, 448]⟩
abbrev S256 : Shape := ⟨1, ![256]⟩
abbrev S896x896 : Shape := ⟨2, ![896, 896]⟩
abbrev S448x2 : Shape := ⟨2, ![448, 2]⟩
abbrev S2x448 : Shape := ⟨2, ![2, 448]⟩
abbrev S448x3 : Shape := ⟨2, ![448, 3]⟩
abbrev S3x448 : Shape := ⟨2, ![3, 448]⟩
abbrev S448x256 : Shape := ⟨2, ![448, 256]⟩
abbrev S1x896 : Shape := ⟨2, ![1, 896]⟩
abbrev S1x448 : Shape := ⟨2, ![1, 448]⟩
abbrev S1x256 : Shape := ⟨2, ![1, 256]⟩
abbrev S16384x256 : Shape := ⟨2, ![16384, 256]⟩
abbrev S256x2 : Shape := ⟨2, ![256, 2]⟩
abbrev S256x896 : Shape := ⟨2, ![256, 896]⟩
abbrev S256x1 : Shape := ⟨2, ![256, 1]⟩
abbrev S256x256 : Shape := ⟨2, ![256, 256]⟩
abbrev S256x3 : Shape := ⟨2, ![256, 3]⟩

abbrev nBuf : Space → Nat
  | .hbm => 62
  | .vmem => 32
  | .smem => 0
  | _ => 0

abbrev bufTy : (tb : Table) → Fin (tcTables nBuf tb) → BufTy
  | .hbm, ⟨0, _⟩ => ⟨S16384x2, .f32⟩
  | .hbm, ⟨1, _⟩ => ⟨S16384x896, .f32⟩
  | .hbm, ⟨2, _⟩ => ⟨S16384x1, .f32⟩
  | .hbm, ⟨3, _⟩ => ⟨S2688x896, .f32⟩
  | .hbm, ⟨4, _⟩ => ⟨S1344x2, .f32⟩
  | .hbm, ⟨5, _⟩ => ⟨S1344x3, .f32⟩
  | .hbm, ⟨6, _⟩ => ⟨S896, .f32⟩
  | .hbm, ⟨7, _⟩ => ⟨S896, .f32⟩
  | .hbm, ⟨8, _⟩ => ⟨S896, .f32⟩
  | .hbm, ⟨9, _⟩ => ⟨S448x448, .f32⟩
  | .hbm, ⟨10, _⟩ => ⟨S448, .f32⟩
  | .hbm, ⟨11, _⟩ => ⟨S256x448, .f32⟩
  | .hbm, ⟨12, _⟩ => ⟨S256, .f32⟩
  | .hbm, ⟨13, _⟩ => ⟨S448x448, .f32⟩
  | .hbm, ⟨14, _⟩ => ⟨S448, .f32⟩
  | .hbm, ⟨15, _⟩ => ⟨S256x448, .f32⟩
  | .hbm, ⟨16, _⟩ => ⟨S256, .f32⟩
  | .hbm, ⟨17, _⟩ => ⟨S896x896, .f32⟩
  | .hbm, ⟨18, _⟩ => ⟨S896x896, .f32⟩
  | .hbm, ⟨19, _⟩ => ⟨S896x896, .f32⟩
  | .hbm, ⟨20, _⟩ => ⟨S896x896, .f32⟩
  | .hbm, ⟨21, _⟩ => ⟨S896x896, .bf16⟩
  | .hbm, ⟨22, _⟩ => ⟨S896x896, .f32⟩
  | .hbm, ⟨23, _⟩ => ⟨S896x896, .bf16⟩
  | .hbm, ⟨24, _⟩ => ⟨S896x896, .f32⟩
  | .hbm, ⟨25, _⟩ => ⟨S896x896, .bf16⟩
  | .hbm, ⟨26, _⟩ => ⟨S448x2, .f32⟩
  | .hbm, ⟨27, _⟩ => ⟨S448x2, .f32⟩
  | .hbm, ⟨28, _⟩ => ⟨S448x2, .f32⟩
  | .hbm, ⟨29, _⟩ => ⟨S2x448, .f32⟩
  | .hbm, ⟨30, _⟩ => ⟨S2x448, .bf16⟩
  | .hbm, ⟨31, _⟩ => ⟨S2x448, .f32⟩
  | .hbm, ⟨32, _⟩ => ⟨S2x448, .bf16⟩
  | .hbm, ⟨33, _⟩ => ⟨S2x448, .f32⟩
  | .hbm, ⟨34, _⟩ => ⟨S2x448, .bf16⟩
  | .hbm, ⟨35, _⟩ => ⟨S448x3, .f32⟩
  | .hbm, ⟨36, _⟩ => ⟨S448x3, .f32⟩
  | .hbm, ⟨37, _⟩ => ⟨S448x3, .f32⟩
  | .hbm, ⟨38, _⟩ => ⟨S3x448, .f32⟩
  | .hbm, ⟨39, _⟩ => ⟨S3x448, .bf16⟩
  | .hbm, ⟨40, _⟩ => ⟨S3x448, .f32⟩
  | .hbm, ⟨41, _⟩ => ⟨S3x448, .bf16⟩
  | .hbm, ⟨42, _⟩ => ⟨S3x448, .f32⟩
  | .hbm, ⟨43, _⟩ => ⟨S3x448, .bf16⟩
  | .hbm, ⟨44, _⟩ => ⟨S448x448, .f32⟩
  | .hbm, ⟨45, _⟩ => ⟨S448x448, .bf16⟩
  | .hbm, ⟨46, _⟩ => ⟨S448x256, .f32⟩
  | .hbm, ⟨47, _⟩ => ⟨S448x256, .bf16⟩
  | .hbm, ⟨48, _⟩ => ⟨S448x448, .f32⟩
  | .hbm, ⟨49, _⟩ => ⟨S448x448, .bf16⟩
  | .hbm, ⟨50, _⟩ => ⟨S448x256, .f32⟩
  | .hbm, ⟨51, _⟩ => ⟨S448x256, .bf16⟩
  | .hbm, ⟨52, _⟩ => ⟨S1x896, .f32⟩
  | .hbm, ⟨53, _⟩ => ⟨S1x896, .f32⟩
  | .hbm, ⟨54, _⟩ => ⟨S1x896, .f32⟩
  | .hbm, ⟨55, _⟩ => ⟨S1x448, .f32⟩
  | .hbm, ⟨56, _⟩ => ⟨S1x256, .f32⟩
  | .hbm, ⟨57, _⟩ => ⟨S1x448, .f32⟩
  | .hbm, ⟨58, _⟩ => ⟨S1x256, .f32⟩
  | .hbm, ⟨59, _⟩ => ⟨S16384x256, .f32⟩
  | .hbm, ⟨60, _⟩ => ⟨S16384x256, .f32⟩
  | .hbm, ⟨61, _⟩ => ⟨S16384x896, .f32⟩
  | .local _ .vmem, ⟨0, _⟩ => ⟨S256x2, .f32⟩
  | .local _ .vmem, ⟨1, _⟩ => ⟨S256x2, .f32⟩
  | .local _ .vmem, ⟨2, _⟩ => ⟨S256x896, .f32⟩
  | .local _ .vmem, ⟨3, _⟩ => ⟨S256x896, .f32⟩
  | .local _ .vmem, ⟨4, _⟩ => ⟨S256x1, .f32⟩
  | .local _ .vmem, ⟨5, _⟩ => ⟨S256x1, .f32⟩
  | .local _ .vmem, ⟨6, _⟩ => ⟨S896x896, .bf16⟩
  | .local _ .vmem, ⟨7, _⟩ => ⟨S896x896, .bf16⟩
  | .local _ .vmem, ⟨8, _⟩ => ⟨S896x896, .bf16⟩
  | .local _ .vmem, ⟨9, _⟩ => ⟨S2x448, .bf16⟩
  | .local _ .vmem, ⟨10, _⟩ => ⟨S2x448, .bf16⟩
  | .local _ .vmem, ⟨11, _⟩ => ⟨S2x448, .bf16⟩
  | .local _ .vmem, ⟨12, _⟩ => ⟨S3x448, .bf16⟩
  | .local _ .vmem, ⟨13, _⟩ => ⟨S3x448, .bf16⟩
  | .local _ .vmem, ⟨14, _⟩ => ⟨S3x448, .bf16⟩
  | .local _ .vmem, ⟨15, _⟩ => ⟨S1x896, .f32⟩
  | .local _ .vmem, ⟨16, _⟩ => ⟨S1x896, .f32⟩
  | .local _ .vmem, ⟨17, _⟩ => ⟨S1x896, .f32⟩
  | .local _ .vmem, ⟨18, _⟩ => ⟨S448x448, .bf16⟩
  | .local _ .vmem, ⟨19, _⟩ => ⟨S1x448, .f32⟩
  | .local _ .vmem, ⟨20, _⟩ => ⟨S448x256, .bf16⟩
  | .local _ .vmem, ⟨21, _⟩ => ⟨S1x256, .f32⟩
  | .local _ .vmem, ⟨22, _⟩ => ⟨S448x448, .bf16⟩
  | .local _ .vmem, ⟨23, _⟩ => ⟨S1x448, .f32⟩
  | .local _ .vmem, ⟨24, _⟩ => ⟨S448x256, .bf16⟩
  | .local _ .vmem, ⟨25, _⟩ => ⟨S1x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x896, .f32⟩
  | .local _ .vmem, ⟨31, _⟩ => ⟨S256x896, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42_0 : Ref sig .tc := ⟨.hbm, 59, rfl⟩
abbrev main_v42_1 : Ref sig .tc := ⟨.hbm, 60, rfl⟩
abbrev main_v42_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg23_1 : Ref sig .tc := ⟨.vmem, 27, rfl⟩
abbrev cc0_stg24_0 : Ref sig .tc := ⟨.vmem, 28, rfl⟩
abbrev cc0_stg24_1 : Ref sig .tc := ⟨.vmem, 29, rfl⟩
abbrev cc0_stg25_0 : Ref sig .tc := ⟨.vmem, 30, rfl⟩
abbrev cc0_stg25_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem23_1 : DmaSem sig := 27
abbrev cc0_sem24_0 : DmaSem sig := 28
abbrev cc0_sem24_1 : DmaSem sig := 29
abbrev cc0_sem25_0 : DmaSem sig := 30
abbrev cc0_sem25_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S896x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S896x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S896x896 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x448 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x448 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x448 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x448 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x448 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x448 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x896 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x896 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x896 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S448x448 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x448 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S448x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S448x448 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x448 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S448x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S256x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x896 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  slices_S2688x896_S896x896_0_0 : S2688x896.Slices ![0, 0] S896x896
  slices_S2688x896_S896x896_896_0 : S2688x896.Slices ![896, 0] S896x896
  slices_S2688x896_S896x896_1792_0 : S2688x896.Slices ![1792, 0] S896x896
  transposes_S896x896_S896x896_1_0 : S896x896.Transposes [1, 0] S896x896
  bitsLt_bf16_f32 : FTy.bits .bf16 < FTy.bits .f32
  slices_S1344x2_S448x2_0_0 : S1344x2.Slices ![0, 0] S448x2
  slices_S1344x2_S448x2_448_0 : S1344x2.Slices ![448, 0] S448x2
  slices_S1344x2_S448x2_896_0 : S1344x2.Slices ![896, 0] S448x2
  transposes_S448x2_S2x448_1_0 : S448x2.Transposes [1, 0] S2x448
  slices_S1344x3_S448x3_0_0 : S1344x3.Slices ![0, 0] S448x3
  slices_S1344x3_S448x3_448_0 : S1344x3.Slices ![448, 0] S448x3
  slices_S1344x3_S448x3_896_0 : S1344x3.Slices ![896, 0] S448x3
  transposes_S448x3_S3x448_1_0 : S448x3.Transposes [1, 0] S3x448
  transposes_S448x448_S448x448_1_0 : S448x448.Transposes [1, 0] S448x448
  transposes_S256x448_S448x256_1_0 : S256x448.Transposes [1, 0] S448x256
  shapeCasts_S896_S1x896 : S896.ShapeCasts S1x896
  shapeCasts_S448_S1x448 : S448.ShapeCasts S1x448
  shapeCasts_S256_S1x256 : S256.ShapeCasts S1x256
  inb_S256x896_S256x896_0_0 : ∀ a, (![0, 0] : Fin 2 → Nat) a + S256x896.size a ≤ S256x896.size a
  h_S256x896 : 0 < S256x896.numel
  inb_S256x2_S256x2_0_0 : ∀ a, (![0, 0] : Fin 2 → Nat) a + S256x2.size a ≤ S256x2.size a
  h_S256x2 : 0 < S256x2.numel
  inb_S256x1_S256x1_0_0 : ∀ a, (![0, 0] : Fin 2 → Nat) a + S256x1.size a ≤ S256x1.size a
  h_S256x1 : 0 < S256x1.numel
  concatenates_S256x2_S256x1_S256x3_d1 : Shape.Concatenates [S256x2, S256x1] S256x3 1
  inb_S896x896_S896x896_0_0 : ∀ a, (![0, 0] : Fin 2 → Nat) a + S896x896.size a ≤ S896x896.size a
  h_S896x896 : 0 < S896x896.numel
  shapeCasts_S896x896_S896x896 : S896x896.ShapeCasts S896x896
  inb_S2x448_S2x448_0_0 : ∀ a, (![0, 0] : Fin 2 → Nat) a + S2x448.size a ≤ S2x448.size a
  h_S2x448 : 0 < S2x448.numel
  shapeCasts_S2x448_S2x448 : S2x448.ShapeCasts S2x448
  inb_S3x448_S3x448_0_0 : ∀ a, (![0, 0] : Fin 2 → Nat) a + S3x448.size a ≤ S3x448.size a
  h_S3x448 : 0 < S3x448.numel
  shapeCasts_S3x448_S3x448 : S3x448.ShapeCasts S3x448
  concatenates_S256x448_S256x448_S256x896_d1 : Shape.Concatenates [S256x448, S256x448] S256x896 1
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S256x896 : S1x896.Broadcasts S256x896
  slices_S256x896_o0_0_S256x448 : S256x896.Slices ![0, 0] S256x448
  slices_S256x896_o0_448_S256x448 : S256x896.Slices ![0, 448] S256x448
  inb_S448x448_S448x448_0_0 : ∀ a, (![0, 0] : Fin 2 → Nat) a + S448x448.size a ≤ S448x448.size a
  h_S448x448 : 0 < S448x448.numel
  shapeCasts_S448x448_S448x448 : S448x448.ShapeCasts S448x448
  inb_S1x448_S1x448_0_0 : ∀ a, (![0, 0] : Fin 2 → Nat) a + S1x448.size a ≤ S1x448.size a
  h_S1x448 : 0 < S1x448.numel
  shapeCasts_S1x448_S1x448 : S1x448.ShapeCasts S1x448
  broadcasts_S1x448_S256x448 : S1x448.Broadcasts S256x448
  inb_S448x256_S448x256_0_0 : ∀ a, (![0, 0] : Fin 2 → Nat) a + S448x256.size a ≤ S448x256.size a
  h_S448x256 : 0 < S448x256.numel
  shapeCasts_S448x256_S448x256 : S448x256.ShapeCasts S448x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x896_S896x896_S256x896_1_0_0_1_n_n_wf : DotDims.WF S256x896 S896x896 S256x896 [1] [0] [0] [1] [] []
  dot_S256x2_S2x448_S256x448_1_0_0_1_n_n_wf : DotDims.WF S256x2 S2x448 S256x448 [1] [0] [0] [1] [] []
  dot_S256x3_S3x448_S256x448_1_0_0_1_n_n_wf : DotDims.WF S256x3 S3x448 S256x448 [1] [0] [0] [1] [] []
  dot_S256x448_S448x448_S256x448_1_0_0_1_n_n_wf : DotDims.WF S256x448 S448x448 S256x448 [1] [0] [0] [1] [] []
  dot_S256x448_S448x256_S256x256_1_0_0_1_n_n_wf : DotDims.WF S256x448 S448x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2.size a ≤ S16384x2.size a
  hwx0_0 : ∀ i : grid0.Coords, EltTy.bits .f32 = 32 ∨ (Rect.block (s := S16384x2) S256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x896.size a ≤ S16384x896.size a
  hwx0_1 : ∀ i : grid0.Coords, EltTy.bits .f32 = 32 ∨ (Rect.block (s := S16384x896) S256x896.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S896x896.size a ≤ S896x896.size a
  hwx0_3 : ∀ i : grid0.Coords, EltTy.bits .bf16 = 32 ∨ (Rect.block (s := S896x896) S896x896.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S896x896.size a ≤ S896x896.size a
  hwx0_4 : ∀ i : grid0.Coords, EltTy.bits .bf16 = 32 ∨ (Rect.block (s := S896x896) S896x896.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S896x896.size a ≤ S896x896.size a
  hwx0_5 : ∀ i : grid0.Coords, EltTy.bits .bf16 = 32 ∨ (Rect.block (s := S896x896) S896x896.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x448.size a ≤ S2x448.size a
  hwx0_6 : ∀ i : grid0.Coords, EltTy.bits .bf16 = 32 ∨ (Rect.block (s := S2x448) S2x448.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x448.size a ≤ S2x448.size a
  hwx0_7 : ∀ i : grid0.Coords, EltTy.bits .bf16 = 32 ∨ (Rect.block (s := S2x448) S2x448.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x448.size a ≤ S2x448.size a
  hwx0_8 : ∀ i : grid0.Coords, EltTy.bits .bf16 = 32 ∨ (Rect.block (s := S2x448) S2x448.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x448.size a ≤ S3x448.size a
  hwx0_9 : ∀ i : grid0.Coords, EltTy.bits .bf16 = 32 ∨ (Rect.block (s := S3x448) S3x448.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x448.size a ≤ S3x448.size a
  hwx0_10 : ∀ i : grid0.Coords, EltTy.bits .bf16 = 32 ∨ (Rect.block (s := S3x448) S3x448.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x448.size a ≤ S3x448.size a
  hwx0_11 : ∀ i : grid0.Coords, EltTy.bits .bf16 = 32 ∨ (Rect.block (s := S3x448) S3x448.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x896.size a ≤ S1x896.size a
  hwx0_12 : ∀ i : grid0.Coords, EltTy.bits .f32 = 32 ∨ (Rect.block (s := S1x896) S1x896.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x896.size a ≤ S1x896.size a
  hwx0_13 : ∀ i : grid0.Coords, EltTy.bits .f32 = 32 ∨ (Rect.block (s := S1x896) S1x896.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x896.size a ≤ S1x896.size a
  hwx0_14 : ∀ i : grid0.Coords, EltTy.bits .f32 = 32 ∨ (Rect.block (s := S1x896) S1x896.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S448x448.size a ≤ S448x448.size a
  hwx0_15 : ∀ i : grid0.Coords, EltTy.bits .bf16 = 32 ∨ (Rect.block (s := S448x448) S448x448.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x448.size a ≤ S1x448.size a
  hwx0_16 : ∀ i : grid0.Coords, EltTy.bits .f32 = 32 ∨ (Rect.block (s := S1x448) S1x448.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S448x256.size a ≤ S448x256.size a
  hwx0_17 : ∀ i : grid0.Coords, EltTy.bits .bf16 = 32 ∨ (Rect.block (s := S448x256) S448x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x256.size a
  hwx0_18 : ∀ i : grid0.Coords, EltTy.bits .f32 = 32 ∨ (Rect.block (s := S1x256) S1x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S448x448.size a ≤ S448x448.size a
  hwx0_19 : ∀ i : grid0.Coords, EltTy.bits .bf16 = 32 ∨ (Rect.block (s := S448x448) S448x448.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x448.size a ≤ S1x448.size a
  hwx0_20 : ∀ i : grid0.Coords, EltTy.bits .f32 = 32 ∨ (Rect.block (s := S1x448) S1x448.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S448x256.size a ≤ S448x256.size a
  hwx0_21 : ∀ i : grid0.Coords, EltTy.bits .bf16 = 32 ∨ (Rect.block (s := S448x256) S448x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x256.size a ≤ S1x256.size a
  hwx0_22 : ∀ i : grid0.Coords, EltTy.bits .f32 = 32 ∨ (Rect.block (s := S1x256) S1x256.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S256x256.size a ≤ S16384x256.size a
  hwx0_23 : ∀ i : grid0.Coords, EltTy.bits .f32 = 32 ∨ (Rect.block (s := S16384x256) S256x256.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S256x256.size a ≤ S16384x256.size a
  hwx0_24 : ∀ i : grid0.Coords, EltTy.bits .f32 = 32 ∨ (Rect.block (s := S16384x256) S256x256.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S256x896.size a ≤ S16384x896.size a
  hwx0_25 : ∀ i : grid0.Coords, EltTy.bits .f32 = 32 ∨ (Rect.block (s := S16384x896) S256x896.size (cc0_transform_25 i) (hinb0_25 i)).WholeWords (EltTy.packing .f32)

variable [Facts₀]

def dot_S256x896_S896x896_S256x896_1_0_0_1_n_n : DotDims S256x896 S896x896 S256x896 where
  lhsContracting := [1]
  rhsContracting := [0]
  lhsNonContracting := [0]
  rhsNonContracting := [1]
  lhsBatch := []
  rhsBatch := []
  wf := dot_S256x896_S896x896_S256x896_1_0_0_1_n_n_wf
def dot_S256x2_S2x448_S256x448_1_0_0_1_n_n : DotDims S256x2 S2x448 S256x448 where
  lhsContracting := [1]
  rhsContracting := [0]
  lhsNonContracting := [0]
  rhsNonContracting := [1]
  lhsBatch := []
  rhsBatch := []
  wf := dot_S256x2_S2x448_S256x448_1_0_0_1_n_n_wf
def dot_S256x3_S3x448_S256x448_1_0_0_1_n_n : DotDims S256x3 S3x448 S256x448 where
  lhsContracting := [1]
  rhsContracting := [0]
  lhsNonContracting := [0]
  rhsNonContracting := [1]
  lhsBatch := []
  rhsBatch := []
  wf := dot_S256x3_S3x448_S256x448_1_0_0_1_n_n_wf
def dot_S256x448_S448x448_S256x448_1_0_0_1_n_n : DotDims S256x448 S448x448 S256x448 where
  lhsContracting := [1]
  rhsContracting := [0]
  lhsNonContracting := [0]
  rhsNonContracting := [1]
  lhsBatch := []
  rhsBatch := []
  wf := dot_S256x448_S448x448_S256x448_1_0_0_1_n_n_wf
def dot_S256x448_S448x256_S256x256_1_0_0_1_n_n : DotDims S256x448 S448x256 S256x256 where
  lhsContracting := [1]
  rhsContracting := [0]
  lhsNonContracting := [0]
  rhsNonContracting := [1]
  lhsBatch := []
  rhsBatch := []
  wf := dot_S256x448_S448x256_S256x256_1_0_0_1_n_n_wf

abbrev win0_0 : Pipeline.Window sig grid0 :=
  Pipeline.Window.ofSpec (Memref.whole main_arg0) S256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x896.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S896x896.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S896x896.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S896x896.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S2x448.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S2x448.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S2x448.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S3x448.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S3x448.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S3x448.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v35) S1x896.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v36) S1x896.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v37) S1x896.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v28) S448x448.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v38) S1x448.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v30) S448x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v39) S1x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v32) S448x448.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v40) S1x448.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v34) S448x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v41) S1x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v42_0) S256x256.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v42_1) S256x256.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v42_2) S256x896.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S16384x2 : Shape := ⟨2, ![16384, 2]⟩
abbrev S16384x896 : Shape := ⟨2, ![16384, 896]⟩
abbrev S16384x1 : Shape := ⟨2, ![16384, 1]⟩
abbrev S2688x896 : Shape := ⟨2, ![2688, 896]⟩
abbrev S1344x2 : Shape := ⟨2, ![1344, 2]⟩
abbrev S1344x3 : Shape := ⟨2, ![1344, 3]⟩
abbrev S896 : Shape := ⟨1, ![896]⟩
abbrev S448x448 : Shape := ⟨2, ![448, 448]⟩
abbrev S448 : Shape := ⟨1, ![448]⟩
abbrev S256x448 : Shape := ⟨2, ![256, 448]⟩
abbrev S256 : Shape := ⟨1, ![256]⟩
abbrev S896x2688 : Shape := ⟨2, ![896, 2688]⟩
abbrev S16384x2688 : Shape := ⟨2, ![16384, 2688]⟩
abbrev S2x1344 : Shape := ⟨2, ![2, 1344]⟩
abbrev S16384x1344 : Shape := ⟨2, ![16384, 1344]⟩
abbrev S16384x448 : Shape := ⟨2, ![16384, 448]⟩
abbrev S16384x3 : Shape := ⟨2, ![16384, 3]⟩
abbrev S3x1344 : Shape := ⟨2, ![3, 1344]⟩
abbrev S1x896 : Shape := ⟨2, ![1, 896]⟩
abbrev S_ : Shape := ⟨0, ![]⟩
abbrev S1x448 : Shape := ⟨2, ![1, 448]⟩
abbrev S448x256 : Shape := ⟨2, ![448, 256]⟩
abbrev S16384x256 : Shape := ⟨2, ![16384, 256]⟩
abbrev S1x256 : Shape := ⟨2, ![1, 256]⟩

abbrev nBuf : Space → Nat
  | .hbm => 100
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S16384x896, .f32⟩
  | .hbm, ⟨2, _⟩ => ⟨S16384x1, .f32⟩
  | .hbm, ⟨3, _⟩ => ⟨S2688x896, .f32⟩
  | .hbm, ⟨4, _⟩ => ⟨S1344x2, .f32⟩
  | .hbm, ⟨5, _⟩ => ⟨S1344x3, .f32⟩
  | .hbm, ⟨6, _⟩ => ⟨S896, .f32⟩
  | .hbm, ⟨7, _⟩ => ⟨S896, .f32⟩
  | .hbm, ⟨8, _⟩ => ⟨S896, .f32⟩
  | .hbm, ⟨9, _⟩ => ⟨S448x448, .f32⟩
  | .hbm, ⟨10, _⟩ => ⟨S448, .f32⟩
  | .hbm, ⟨11, _⟩ => ⟨S256x448, .f32⟩
  | .hbm, ⟨12, _⟩ => ⟨S256, .f32⟩
  | .hbm, ⟨13, _⟩ => ⟨S448x448, .f32⟩
  | .hbm, ⟨14, _⟩ => ⟨S448, .f32⟩
  | .hbm, ⟨15, _⟩ => ⟨S256x448, .f32⟩
  | .hbm, ⟨16, _⟩ => ⟨S256, .f32⟩
  | .hbm, ⟨17, _⟩ => ⟨S896x2688, .f32⟩
  | .hbm, ⟨18, _⟩ => ⟨S16384x2688, .f32⟩
  | .hbm, ⟨19, _⟩ => ⟨S16384x896, .f32⟩
  | .hbm, ⟨20, _⟩ => ⟨S16384x896, .f32⟩
  | .hbm, ⟨21, _⟩ => ⟨S16384x896, .f32⟩
  | .hbm, ⟨22, _⟩ => ⟨S2x1344, .f32⟩
  | .hbm, ⟨23, _⟩ => ⟨S16384x1344, .f32⟩
  | .hbm, ⟨24, _⟩ => ⟨S16384x448, .f32⟩
  | .hbm, ⟨25, _⟩ => ⟨S16384x448, .f32⟩
  | .hbm, ⟨26, _⟩ => ⟨S16384x448, .f32⟩
  | .hbm, ⟨27, _⟩ => ⟨S16384x3, .f32⟩
  | .hbm, ⟨28, _⟩ => ⟨S3x1344, .f32⟩
  | .hbm, ⟨29, _⟩ => ⟨S16384x1344, .f32⟩
  | .hbm, ⟨30, _⟩ => ⟨S16384x448, .f32⟩
  | .hbm, ⟨31, _⟩ => ⟨S16384x448, .f32⟩
  | .hbm, ⟨32, _⟩ => ⟨S16384x448, .f32⟩
  | .hbm, ⟨33, _⟩ => ⟨S16384x896, .f32⟩
  | .hbm, ⟨34, _⟩ => ⟨S16384x896, .f32⟩
  | .hbm, ⟨35, _⟩ => ⟨S16384x896, .f32⟩
  | .hbm, ⟨36, _⟩ => ⟨S16384x896, .f32⟩
  | .hbm, ⟨37, _⟩ => ⟨S1x896, .f32⟩
  | .hbm, ⟨38, _⟩ => ⟨S16384x896, .f32⟩
  | .hbm, ⟨39, _⟩ => ⟨S16384x896, .f32⟩
  | .hbm, ⟨40, _⟩ => ⟨S16384x896, .f32⟩
  | .hbm, ⟨41, _⟩ => ⟨S16384x896, .f32⟩
  | .hbm, ⟨42, _⟩ => ⟨S_, .f32⟩
  | .hbm, ⟨43, _⟩ => ⟨S16384x896, .f32⟩
  | .hbm, ⟨44, _⟩ => ⟨S16384x896, .f32⟩
  | .hbm, ⟨45, _⟩ => ⟨S_, .f32⟩
  | .hbm, ⟨46, _⟩ => ⟨S16384x896, .f32⟩
  | .hbm, ⟨47, _⟩ => ⟨S16384x896, .f32⟩
  | .hbm, ⟨48, _⟩ => ⟨S16384x896, .f32⟩
  | .hbm, ⟨49, _⟩ => ⟨S1x896, .f32⟩
  | .hbm, ⟨50, _⟩ => ⟨S16384x896, .f32⟩
  | .hbm, ⟨51, _⟩ => ⟨S16384x896, .f32⟩
  | .hbm, ⟨52, _⟩ => ⟨S16384x896, .f32⟩
  | .hbm, ⟨53, _⟩ => ⟨S16384x896, .f32⟩
  | .hbm, ⟨54, _⟩ => ⟨S_, .f32⟩
  | .hbm, ⟨55, _⟩ => ⟨S16384x896, .f32⟩
  | .hbm, ⟨56, _⟩ => ⟨S16384x896, .f32⟩
  | .hbm, ⟨57, _⟩ => ⟨S_, .f32⟩
  | .hbm, ⟨58, _⟩ => ⟨S16384x896, .f32⟩
  | .hbm, ⟨59, _⟩ => ⟨S16384x896, .f32⟩
  | .hbm, ⟨60, _⟩ => ⟨S16384x896, .f32⟩
  | .hbm, ⟨61, _⟩ => ⟨S16384x896, .f32⟩
  | .hbm, ⟨62, _⟩ => ⟨S1x896, .f32⟩
  | .hbm, ⟨63, _⟩ => ⟨S16384x896, .f32⟩
  | .hbm, ⟨64, _⟩ => ⟨S16384x896, .f32⟩
  | .hbm, ⟨65, _⟩ => ⟨S16384x896, .f32⟩
  | .hbm, ⟨66, _⟩ => ⟨S16384x896, .f32⟩
  | .hbm, ⟨67, _⟩ => ⟨S_, .f32⟩
  | .hbm, ⟨68, _⟩ => ⟨S16384x896, .f32⟩
  | .hbm, ⟨69, _⟩ => ⟨S16384x896, .f32⟩
  | .hbm, ⟨70, _⟩ => ⟨S16384x896, .f32⟩
  | .hbm, ⟨71, _⟩ => ⟨S16384x896, .f32⟩
  | .hbm, ⟨72, _⟩ => ⟨S16384x448, .f32⟩
  | .hbm, ⟨73, _⟩ => ⟨S16384x448, .f32⟩
  | .hbm, ⟨74, _⟩ => ⟨S448x448, .f32⟩
  | .hbm, ⟨75, _⟩ => ⟨S16384x448, .f32⟩
  | .hbm, ⟨76, _⟩ => ⟨S1x448, .f32⟩
  | .hbm, ⟨77, _⟩ => ⟨S16384x448, .f32⟩
  | .hbm, ⟨78, _⟩ => ⟨S16384x448, .f32⟩
  | .hbm, ⟨79, _⟩ => ⟨S_, .f32⟩
  | .hbm, ⟨80, _⟩ => ⟨S16384x448, .f32⟩
  | .hbm, ⟨81, _⟩ => ⟨S16384x448, .f32⟩
  | .hbm, ⟨82, _⟩ => ⟨S448x256, .f32⟩
  | .hbm, ⟨83, _⟩ => ⟨S16384x256, .f32⟩
  | .hbm, ⟨84, _⟩ => ⟨S1x256, .f32⟩
  | .hbm, ⟨85, _⟩ => ⟨S16384x256, .f32⟩
  | .hbm, ⟨86, _⟩ => ⟨S16384x256, .f32⟩
  | .hbm, ⟨87, _⟩ => ⟨S448x448, .f32⟩
  | .hbm, ⟨88, _⟩ => ⟨S16384x448, .f32⟩
  | .hbm, ⟨89, _⟩ => ⟨S1x448, .f32⟩
  | .hbm, ⟨90, _⟩ => ⟨S16384x448, .f32⟩
  | .hbm, ⟨91, _⟩ => ⟨S16384x448, .f32⟩
  | .hbm, ⟨92, _⟩ => ⟨S_, .f32⟩
  | .hbm, ⟨93, _⟩ => ⟨S16384x448, .f32⟩
  | .hbm, ⟨94, _⟩ => ⟨S16384x448, .f32⟩
  | .hbm, ⟨95, _⟩ => ⟨S448x256, .f32⟩
  | .hbm, ⟨96, _⟩ => ⟨S16384x256, .f32⟩
  | .hbm, ⟨97, _⟩ => ⟨S1x256, .f32⟩
  | .hbm, ⟨98, _⟩ => ⟨S16384x256, .f32⟩
  | .hbm, ⟨99, _⟩ => ⟨S16384x256, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_cst_0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_1 : Ref sig .tc := ⟨.hbm, 54, rfl⟩
abbrev main_v35 : Ref sig .tc := ⟨.hbm, 55, rfl⟩
abbrev main_v36 : Ref sig .tc := ⟨.hbm, 56, rfl⟩
abbrev main_cst_2 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call0_cst : Ref sig .tc := ⟨.hbm, 79, rfl⟩
abbrev main_call0_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_cst : Ref sig .tc := ⟨.hbm, 92, rfl⟩
abbrev main_call1_v0 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]

class Facts₀ : Prop where
  transposes_S2688x896_S896x2688_1_0 : S2688x896.Transposes [1, 0] S896x2688
  slices_S16384x2688_S16384x896_0_0 : S16384x2688.Slices ![0, 0] S16384x896
  slices_S16384x2688_S16384x896_0_896 : S16384x2688.Slices ![0, 896] S16384x896
  slices_S16384x2688_S16384x896_0_1792 : S16384x2688.Slices ![0, 1792] S16384x896
  transposes_S1344x2_S2x1344_1_0 : S1344x2.Transposes [1, 0] S2x1344
  slices_S16384x1344_S16384x448_0_0 : S16384x1344.Slices ![0, 0] S16384x448
  slices_S16384x1344_S16384x448_0_448 : S16384x1344.Slices ![0, 448] S16384x448
  slices_S16384x1344_S16384x448_0_896 : S16384x1344.Slices ![0, 896] S16384x448
  concatenates_S16384x2_S16384x1_S16384x3_d1 : Shape.Concatenates [S16384x2, S16384x1] S16384x3 1
  transposes_S1344x3_S3x1344_1_0 : S1344x3.Transposes [1, 0] S3x1344
  concatenates_S16384x448_S16384x448_S16384x896_d1 : Shape.Concatenates [S16384x448, S16384x448] S16384x896 1
  bcast_S896_S1x896_1 : S896.BroadcastsInDim S1x896 (![1] : Fin 1 → Fin S1x896.rank)
  bcast_S1x896_S16384x896_0_1 : S1x896.BroadcastsInDim S16384x896 (![0, 1] : Fin 2 → Fin S16384x896.rank)
  bcast_S_S16384x896 : S_.BroadcastsInDim S16384x896 (![] : Fin 0 → Fin S16384x896.rank)
  slices_S16384x896_S16384x448_0_0 : S16384x896.Slices ![0, 0] S16384x448
  slices_S16384x896_S16384x448_0_448 : S16384x896.Slices ![0, 448] S16384x448
  transposes_S448x448_S448x448_1_0 : S448x448.Transposes [1, 0] S448x448
  bcast_S448_S1x448_1 : S448.BroadcastsInDim S1x448 (![1] : Fin 1 → Fin S1x448.rank)
  bcast_S1x448_S16384x448_0_1 : S1x448.BroadcastsInDim S16384x448 (![0, 1] : Fin 2 → Fin S16384x448.rank)
  bcast_S_S16384x448 : S_.BroadcastsInDim S16384x448 (![] : Fin 0 → Fin S16384x448.rank)
  transposes_S256x448_S448x256_1_0 : S256x448.Transposes [1, 0] S448x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S16384x896_S896x2688_S16384x2688_1_0_0_1_n_n_wf : DotDims.WF S16384x896 S896x2688 S16384x2688 [1] [0] [0] [1] [] []
  dot_S16384x2_S2x1344_S16384x1344_1_0_0_1_n_n_wf : DotDims.WF S16384x2 S2x1344 S16384x1344 [1] [0] [0] [1] [] []
  dot_S16384x3_S3x1344_S16384x1344_1_0_0_1_n_n_wf : DotDims.WF S16384x3 S3x1344 S16384x1344 [1] [0] [0] [1] [] []
  dot_S16384x448_S448x448_S16384x448_1_0_0_1_n_n_wf : DotDims.WF S16384x448 S448x448 S16384x448 [1] [0] [0] [1] [] []
  dot_S16384x448_S448x256_S16384x256_1_0_0_1_n_n_wf : DotDims.WF S16384x448 S448x256 S16384x256 [1] [0] [0] [1] [] []

variable [Facts₀]

def dot_S16384x896_S896x2688_S16384x2688_1_0_0_1_n_n : DotDims S16384x896 S896x2688 S16384x2688 where
  lhsContracting := [1]
  rhsContracting := [0]
  lhsNonContracting := [0]
  rhsNonContracting := [1]
  lhsBatch := []
  rhsBatch := []
  wf := dot_S16384x896_S896x2688_S16384x2688_1_0_0_1_n_n_wf
def dot_S16384x2_S2x1344_S16384x1344_1_0_0_1_n_n : DotDims S16384x2 S2x1344 S16384x1344 where
  lhsContracting := [1]
  rhsContracting := [0]
  lhsNonContracting := [0]
  rhsNonContracting := [1]
  lhsBatch := []
  rhsBatch := []
  wf := dot_S16384x2_S2x1344_S16384x1344_1_0_0_1_n_n_wf
def dot_S16384x3_S3x1344_S16384x1344_1_0_0_1_n_n : DotDims S16384x3 S3x1344 S16384x1344 where
  lhsContracting := [1]
  rhsContracting := [0]
  lhsNonContracting := [0]
  rhsNonContracting := [1]
  lhsBatch := []
  rhsBatch := []
  wf := dot_S16384x3_S3x1344_S16384x1344_1_0_0_1_n_n_wf
def dot_S16384x448_S448x448_S16384x448_1_0_0_1_n_n : DotDims S16384x448 S448x448 S16384x448 where
  lhsContracting := [1]
  rhsContracting := [0]
  lhsNonContracting := [0]
  rhsNonContracting := [1]
  lhsBatch := []
  rhsBatch := []
  wf := dot_S16384x448_S448x448_S16384x448_1_0_0_1_n_n_wf
def dot_S16384x448_S448x256_S16384x256_1_0_0_1_n_n : DotDims S16384x448 S448x256 S16384x256 where
  lhsContracting := [1]
  rhsContracting := [0]
  lhsNonContracting := [0]
  rhsNonContracting := [1]
  lhsBatch := []
  rhsBatch := []
  wf := dot_S16384x448_S448x256_S16384x256_1_0_0_1_n_n_wf

class Facts : Prop extends Facts₀ where

variable [Facts]
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«137769_j54142357734073_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibSideBySide.lean ====
/-
  Two arrays side by side, read at coordinates.

  Concatenating an `[n, a]` array and an `[n, b]` array along the column axis gives an `[n, c]` array, `c = a + b`, whose
  entry `(p, q)` is the left array's `(p, q)` when `q < a` and the right array's `(p, q - a)` otherwise.
-/
import Idealize.ShloMosaic.Lib.Pipeline.Value
import Idealize.ShloMosaic.Lib.ValueIdx

noncomputable section

namespace Idealize.ShloMosaic.SideBySide

open Idealize.ShloMosaic Idealize.ShloMosaic.ValueIdx

variable {α : Type} {n a b c : Nat}

/-- A column of the left part reads the left array. -/
theorem apply_left (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : q.val < a) :
    concatenate ⟨2, ![n, c]⟩ 1 [⟨⟨2, ![n, a]⟩, A⟩, ⟨⟨2, ![n, b]⟩, B⟩] h (ix2 p q) = A (ix2 p ⟨q.val, hq⟩) :=
  concatenate_pair_apply_left (1 : Fin 2) A B h (ix2 p q) rfl (ix2 p ⟨q.val, hq⟩) (fun ax => by
    match ax with
    | ⟨0, _⟩ => rfl
    | ⟨1, _⟩ => rfl)

/-- A column of the right part reads the right array, the left part's width less. -/
theorem apply_right (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : a ≤ q.val)
    (hb : q.val - a < b) :
    concatenate ⟨2, ![n, c]⟩ 1 [⟨⟨2, ![n, a]⟩, A⟩, ⟨⟨2, ![n, b]⟩, B⟩] h (ix2 p q) = B (ix2 p ⟨q.val - a, hb⟩) :=
  concatenate_pair_apply_right (1 : Fin 2) A B h (ix2 p q) rfl rfl (ix2 p ⟨q.val - a, hb⟩) (fun ax hax => by
    match ax with
    | ⟨0, _⟩ => rfl
    | ⟨1, _⟩ => exact absurd rfl hax) (by
    show (q.val - a) + a = q.val
    omega)

end Idealize.ShloMosaic.SideBySide

end
-- ==== Proof.LibRowwise.lean ====
/-
  Layers of a network that acts on each row by itself, read along one row.

  An `[R, n]` array is a stack of `R` rows. A product with a fixed `[K, N]` matrix, an entrywise maximum with a constant,
  a block of consecutive columns, and two arrays set side by side all act on every row separately: row `p` of the result
  is a function of row `p` of the operand alone. This file names those four functions of one row (`dense`, `floorAt`,
  `cols`, `join`) and reads the array operations, at the ideal instance, one row at a time. A chain of such layers is then
  read off by rewriting from the outside in, and two programs that tile the rows differently (a kernel that handles a
  block of rows per grid point, a reference that handles all rows at once) meet at the same function of a row.
-/
import Idealize.ShloMosaic.Lib.Pipeline.Value
import Idealize.ShloMosaic.Lib.ValueIdx
import Idealize.ShloMosaic.PureOps.Ideal.Laws
import proofs.«137769_j54142357734073_1_alg».proof.Proof.LibPlainDotAny
import proofs.«137769_j54142357734073_1_alg».proof.Proof.LibSideBySide

noncomputable section

open scoped BigOperators

namespace Idealize.ShloMosaic.Rowwise

open Idealize.ShloMosaic Idealize.ShloMosaic.ValueIdx

/-! ## Functions of one row -/

/-- A row times a matrix: entry `c` is the sum over `k` of `a k * W k c`. -/
def dense {K N : Nat} (a : Fin K → EReal) (W : Fin K → Fin N → EReal) : Fin N → EReal :=
  fun c => ∑ k : Fin K, a k * W k c

/-- Every entry raised to at least `z`. -/
def floorAt {N : Nat} (z : EReal) (a : Fin N → EReal) : Fin N → EReal :=
  fun c => max (a c) z

/-- The `k` consecutive entries of a row that start at `off`. -/
def cols {n : Nat} (off k : Nat) (h : off + k ≤ n) (a : Fin n → EReal) : Fin k → EReal :=
  fun j => a ⟨off + j.val, by have := j.isLt; omega⟩

/-- Two rows end to end. -/
def join {n₁ n₂ n : Nat} (h : n = n₁ + n₂) (a : Fin n₁ → EReal) (b : Fin n₂ → EReal) : Fin n → EReal :=
  fun q => if hq : q.val < n₁ then a ⟨q.val, hq⟩ else b ⟨q.val - n₁, by have := q.isLt; omega⟩

/-! ## Rows of an array, and a matrix by its two coordinates -/

/-- Row `p` of an `[R, n]` array. -/
def row {R n : Nat} (A : (⟨2, ![R, n]⟩ : Shape).Idx → EReal) (p : Fin R) : Fin n → EReal :=
  fun k => A (ix2 p k)

/-- A `[K, N]` array by its two coordinates. -/
def mat {K N : Nat} (B : (⟨2, ![K, N]⟩ : Shape).Idx → EReal) : Fin K → Fin N → EReal :=
  fun k c => B (ix2 k c)

theorem row_apply {R n : Nat} (A : (⟨2, ![R, n]⟩ : Shape).Idx → EReal) (p : Fin R) (k : Fin n) : row A p k = A (ix2 p k) := rfl

/-! ## The array operations, one row at a time -/

/-- A product into a zero accumulator: row `p` of the result is row `p` of the left operand times the right operand. -/
theorem row_matmul {M K N : Nat} {φ₁ φ₂ : FTy} (prec : Option ContractPrecision) (A : FVec Ideal ⟨2, ![M, K]⟩ φ₁)
    (B : FVec Ideal ⟨2, ![K, N]⟩ φ₂) (p : Fin M) :
    row (FloatOps.matmul (DotDims.plain M K N) prec A B (constant ⟨2, ![M, N]⟩ .f32 0x00000000#32)) p
      = dense (row A p) (mat B) := by
  funext c
  exact PlainDot.matmul_zero_apply_any M K N prec A B (ix2 p c)

/-- The host's product: the same function of the row. -/
theorem row_dotGeneral {M K N : Nat} {φ₁ φ₂ : FTy} (prec : Option ContractPrecision) (sched : HostSchedule)
    (A : FVec Ideal ⟨2, ![M, K]⟩ φ₁) (B : FVec Ideal ⟨2, ![K, N]⟩ φ₂) (p : Fin M) :
    row (FloatOps.dotGeneral (DotDims.plain M K N) prec sched A B) p = dense (row A p) (mat B) := by
  funext c
  exact PlainDot.dotGeneral_apply_any M K N prec sched A B (ix2 p c)

/-- An entrywise maximum with an array that holds `z` everywhere. -/
theorem row_maximumf_const {R n : Nat} {φ : FTy} (A Z : FVec Ideal ⟨2, ![R, n]⟩ φ) (z : EReal) (hZ : ∀ i, Z i = z) (p : Fin R) :
    row (maximumf A Z) p = floorAt z (row A p) := by
  funext c
  show max (A (ix2 p c)) (Z (ix2 p c)) = max (A (ix2 p c)) z
  rw [hZ]

/-- A change of float format does nothing at the ideal instance. -/
theorem row_truncf {R n : Nat} {φ ψ : FTy} (A : FVec Ideal ⟨2, ![R, n]⟩ φ) (h : ψ.bits < φ.bits) (p : Fin R) :
    row (truncf ψ A h : FVec Ideal ⟨2, ![R, n]⟩ ψ) p = row A p := rfl

theorem mat_truncf {K N : Nat} {φ ψ : FTy} (B : FVec Ideal ⟨2, ![K, N]⟩ φ) (h : ψ.bits < φ.bits) :
    mat (truncf ψ B h : FVec Ideal ⟨2, ![K, N]⟩ ψ) = mat B := rfl

/-- An entrywise maximum with a scalar repeated over the array. -/
theorem row_maximumf_broadcast {R n : Nat} {φ : FTy} (A : FVec Ideal ⟨2, ![R, n]⟩ φ) (z : Ideal φ) (p : Fin R) :
    row (maximumf A (broadcast ⟨2, ![R, n]⟩ z)) p = floorAt z (row A p) := rfl

/-- An entrywise maximum with a rank-0 constant laid over the array, the host's spelling of the same. -/
theorem row_maximumf_scalarConstant {R n : Nat} (A : FVec Ideal ⟨2, ![R, n]⟩ .f32) (b : BitVec 32)
    (h : (⟨0, ![]⟩ : Shape).BroadcastsInDim ⟨2, ![R, n]⟩ ![]) (p : Fin R) :
    row (maximumf A (broadcastInDim ⟨2, ![R, n]⟩ ![] h (constant (F := Ideal) ⟨0, ![]⟩ .f32 b))) p
      = floorAt (Ideal.ofBits .f32 b) (row A p) := by
  funext c
  show max (A (ix2 p c)) _ = max (A (ix2 p c)) _
  congr 1

/-- A cast of an array to its own shape changes nothing. -/
theorem row_shapeCast_self {R n : Nat} (A : (⟨2, ![R, n]⟩ : Shape).Idx → EReal)
    (h : (⟨2, ![R, n]⟩ : Shape).ShapeCasts ⟨2, ![R, n]⟩) (p : Fin R) :
    row (shapeCast ⟨2, ![R, n]⟩ A h) p = row A p := by
  rw [shapeCast_self]

theorem mat_shapeCast_self {K N : Nat} (B : (⟨2, ![K, N]⟩ : Shape).Idx → EReal)
    (h : (⟨2, ![K, N]⟩ : Shape).ShapeCasts ⟨2, ![K, N]⟩) :
    mat (shapeCast ⟨2, ![K, N]⟩ B h) = mat B := by
  rw [shapeCast_self]

/-- An `[R, 1]` column flattened to an `[R]` vector and stood up again as an `[R, 1]` column is the column it was. -/
theorem row_column_roundtrip {R : Nat} (hR : R ≠ 1) (A : (⟨2, ![R, 1]⟩ : Shape).Idx → EReal)
    (h₁ : (⟨2, ![R, 1]⟩ : Shape).ShapeCasts ⟨1, ![R]⟩)
    (h₂ : (⟨1, ![R]⟩ : Shape).BroadcastsInDim ⟨2, ![R, 1]⟩ ![0]) (p : Fin R) :
    row (broadcastInDim ⟨2, ![R, 1]⟩ ![0] h₂ (shapeCast ⟨1, ![R]⟩ A h₁)) p = row A p := by
  funext k
  show broadcastInDim ⟨2, ![R, 1]⟩ ![0] h₂ (shapeCast ⟨1, ![R]⟩ A h₁) (ix2 p k) = A (ix2 p k)
  rw [broadcastInDim_apply ![0] h₂ _ (ix2 p k) (ix1 p) (fun a => by
    match a with
    | ⟨0, _⟩ => show p.val = if R = 1 then 0 else p.val; rw [if_neg hR])]
  refine shapeCast_apply A h₁ (ix1 p) (ix2 p k) ?_
  rw [Shape.rowMajor_val_two, Shape.rowMajor_val_one]
  show p.val * 1 + k.val = p.val
  have := k.isLt
  omega

/-- A block of `k` columns at `off` lies inside the row. -/
theorem slice_le {R n k off : Nat} (h : (⟨2, ![R, n]⟩ : Shape).Slices ![0, off] ⟨2, ![R, k]⟩) : off + k ≤ n :=
  h.2 1

/-- A block of columns `off ≤ · < off + k` of every row. -/
theorem row_slice {R n k : Nat} (off : Nat) (A : (⟨2, ![R, n]⟩ : Shape).Idx → EReal)
    (h : (⟨2, ![R, n]⟩ : Shape).Slices ![0, off] ⟨2, ![R, k]⟩) (p : Fin R) :
    row (extractStridedSlice ⟨2, ![R, k]⟩ ![0, off] A h) p = cols off k (slice_le h) (row A p) := by
  funext j
  show extractStridedSlice ⟨2, ![R, k]⟩ ![0, off] A h (ix2 p j) = A (ix2 p ⟨off + j.val, _⟩)
  refine extractStridedSlice_apply ![0, off] A h (ix2 p j) _ (fun a => ?_)
  match a with
  | ⟨0, _⟩ => show p.val = 0 + p.val; omega
  | ⟨1, _⟩ => rfl

/-- The joined width is the sum of the two widths. -/
theorem concat_width {R a b c : Nat}
    (h : Shape.Concatenates [(⟨2, ![R, a]⟩ : Shape), ⟨2, ![R, b]⟩] ⟨2, ![R, c]⟩ 1) : c = a + b := by
  have := h.2.2
  simpa using this.symm

/-- Two arrays side by side: every row is the two rows end to end. -/
theorem row_concat {R a b c : Nat} (A : (⟨2, ![R, a]⟩ : Shape).Idx → EReal) (B : (⟨2, ![R, b]⟩ : Shape).Idx → EReal)
    (h : Shape.Concatenates [(⟨2, ![R, a]⟩ : Shape), ⟨2, ![R, b]⟩] ⟨2, ![R, c]⟩ 1) (p : Fin R) :
    row (concatenate ⟨2, ![R, c]⟩ 1 [⟨⟨2, ![R, a]⟩, A⟩, ⟨⟨2, ![R, b]⟩, B⟩] h) p
      = join (concat_width h) (row A p) (row B p) := by
  have hc := concat_width h
  funext q
  unfold join
  by_cases hq : q.val < a
  · rw [dif_pos hq]
    exact SideBySide.apply_left A B h p q hq
  · rw [dif_neg hq]
    exact SideBySide.apply_right A B h p q (by omega) (by have := q.isLt; omega)

end Idealize.ShloMosaic.Rowwise

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibRowMaps.lean ====
/-
  Entrywise maps and column layouts, read along one row.

  An entrywise operation on `[R, n]` arrays (a product, sum, difference, quotient, negation, exponential, logistic) acts
  on every row by itself: row `p` of the result is that operation applied entry by entry to row `p` of the operands. A
  scalar repeated over the array gives a constant row. An `[R, 1]` column repeated along the columns of an `[R, n]` array
  gives, in row `p`, the column's entry of row `p` at every position; so does an `[R]` vector stood up as an `[R, 1]`
  column. All at the ideal instance, where the kernel's and the host's spellings of an operation are one function.
-/
import proofs.«137769_j54142357734073_1_alg».proof.Proof.LibRowwise
import proofs.«137769_j54142357734073_1_alg».proof.Proof.LibKeepdims

noncomputable section

namespace Idealize.ShloMosaic.Rowwise

open Idealize.ShloMosaic Idealize.ShloMosaic.ValueIdx

variable {R n : Nat} {φ : FTy}

/-! ## Entrywise operations -/

theorem row_mulf (A B : FVec Ideal ⟨2, ![R, n]⟩ φ) (p : Fin R) :
    row (mulf A B) p = fun q => row A p q * row B p q := rfl

theorem row_addf (A B : FVec Ideal ⟨2, ![R, n]⟩ φ) (p : Fin R) :
    row (addf A B) p = fun q => row A p q + row B p q := rfl

theorem row_subf (A B : FVec Ideal ⟨2, ![R, n]⟩ φ) (p : Fin R) :
    row (subf A B) p = fun q => row A p q - row B p q := rfl

/-- The kernel's quotient. -/
theorem row_divf (A B : FVec Ideal ⟨2, ![R, n]⟩ φ) (p : Fin R) :
    row (divf A B) p = fun q => Ideal.div (row A p q) (row B p q) := rfl

/-- The host's quotient: the same function. -/
theorem row_hostDivf (A B : FVec Ideal ⟨2, ![R, n]⟩ φ) (p : Fin R) :
    row (Host.divf A B) p = fun q => Ideal.div (row A p q) (row B p q) := rfl

theorem row_negf (A : FVec Ideal ⟨2, ![R, n]⟩ φ) (p : Fin R) :
    row (negf A) p = fun q => -(row A p q) := rfl

theorem row_hostNegf (A : FVec Ideal ⟨2, ![R, n]⟩ φ) (p : Fin R) :
    row (Host.negf A) p = fun q => -(row A p q) := rfl

theorem row_exp (A : FVec Ideal ⟨2, ![R, n]⟩ φ) (p : Fin R) :
    row (exp A) p = fun q => Ideal.exp (row A p q) := rfl

theorem row_hostExp (A : FVec Ideal ⟨2, ![R, n]⟩ φ) (p : Fin R) :
    row (Host.exp A) p = fun q => Ideal.exp (row A p q) := rfl

theorem row_logistic (A : FVec Ideal ⟨2, ![R, n]⟩ φ) (p : Fin R) :
    row (logistic A) p = fun q => Ideal.logistic (row A p q) := rfl

/-! ## Constant rows -/

/-- A scalar repeated over the array. -/
theorem row_broadcast (z : Ideal φ) (p : Fin R) : row (broadcast ⟨2, ![R, n]⟩ z) p = fun _ => z := rfl

/-- A rank-0 constant laid over the array, the host's spelling of the same. -/
theorem row_scalarConstant (b : BitVec 32) (h : (⟨0, ![]⟩ : Shape).BroadcastsInDim ⟨2, ![R, n]⟩ ![]) (p : Fin R) :
    row (broadcastInDim ⟨2, ![R, n]⟩ ![] h (constant (F := Ideal) ⟨0, ![]⟩ .f32 b)) p = fun _ => Ideal.ofBits .f32 b := rfl

/-! ## A column repeated along the columns -/

/-- The kernel's broadcast of an `[R, 1]` column to `[R, n]`: row `p` holds the column's entry of row `p` throughout. -/
theorem row_broadcastTo_column (v : (⟨2, ![R, 1]⟩ : Shape).Idx → EReal) (h : (⟨2, ![R, 1]⟩ : Shape).Broadcasts ⟨2, ![R, n]⟩)
    (p : Fin R) : row (broadcastTo ⟨2, ![R, n]⟩ v h) p = fun _ => row v p 0 :=
  funext fun q => Keepdims.broadcastTo_a1_ab_apply v h p q

/-- The host's broadcast of an `[R, 1]` column to `[R, n]`, both axes kept in place. -/
theorem row_broadcastInDim_column (v : (⟨2, ![R, 1]⟩ : Shape).Idx → EReal)
    (h : (⟨2, ![R, 1]⟩ : Shape).BroadcastsInDim ⟨2, ![R, n]⟩ ![0, 1]) (p : Fin R) :
    row (broadcastInDim ⟨2, ![R, n]⟩ ![0, 1] h v) p = fun _ => row v p 0 := by
  funext q
  show broadcastInDim ⟨2, ![R, n]⟩ ![0, 1] h v (ix2 p q) = v (ix2 p 0)
  refine broadcastInDim_apply ![0, 1] h v (ix2 p q) (ix2 p 0) fun a => ?_
  match a with
  | ⟨0, _⟩ =>
    show p.val = if R = 1 then 0 else p.val
    split
    · have := p.isLt; omega
    · rfl
  | ⟨1, _⟩ => rfl

/-- An `[R]` vector stood up as an `[R, 1]` column: row `p` holds the vector's entry `p`. -/
theorem row_vector_as_column (x : (⟨1, ![R]⟩ : Shape).Idx → EReal)
    (h : (⟨1, ![R]⟩ : Shape).BroadcastsInDim ⟨2, ![R, 1]⟩ ![0]) (p : Fin R) :
    row (broadcastInDim ⟨2, ![R, 1]⟩ ![0] h x) p = fun _ => x (ix1 p) := by
  funext q
  show broadcastInDim ⟨2, ![R, 1]⟩ ![0] h x (ix2 p q) = x (ix1 p)
  refine broadcastInDim_apply ![0] h x (ix2 p q) (ix1 p) fun a => ?_
  match a with
  | ⟨0, _⟩ =>
    show p.val = if R = 1 then 0 else p.val
    split
    · have := p.isLt; omega
    · rfl

end Idealize.ShloMosaic.Rowwise

end
-- ==== Proof.LibRowOfVector.lean ====
/-
  A vector recast as a one-row matrix, read at an index.

  Recasting an `[n]` vector as a `[1, n]` array keeps the row-major order, so the entry at `(0, i)` is the vector's
  entry `i`.
-/
import Idealize.ShloMosaic.Lib.ValueIdx
import Idealize.ShloMosaic.Lib.Pipeline.Value

noncomputable section

namespace Idealize.ShloMosaic.RowOfVector

open Idealize.ShloMosaic Idealize.ShloMosaic.ValueIdx

variable {α : Type} {n : Nat}

/-- The one-row recast of a vector at `(0, i)` is the vector at `i`. -/
theorem apply (x : (⟨1, ![n]⟩ : Shape).Idx → α) (h : (⟨1, ![n]⟩ : Shape).ShapeCasts ⟨2, ![1, n]⟩) (i : Fin n) :
    shapeCast (⟨2, ![1, n]⟩ : Shape) x h (ix2 (0 : Fin 1) i) = x (ix1 i) := by
  refine shapeCast_apply x h (ix2 (0 : Fin 1) i) (ix1 i) ?_
  rw [Shape.rowMajor_val_one, Shape.rowMajor_val_two]
  show i.val = 0 * n + i.val
  omega

end Idealize.ShloMosaic.RowOfVector

end
-- ==== Proof.LibRowLayouts.lean ====
/-
  Row layouts and weight layouts, read along one row.

  A one-row array `[1, n]` repeated down the rows of an `[R, n]` array puts that one row in every row, in the kernel's
  spelling and in the host's. A vector `[n]` laid out as a `[1, n]` array holds the vector's entries in its only row.
  The transpose of a matrix swaps its two coordinates, and a block of consecutive rows of a taller matrix shifts the
  row coordinate; together they give the `[K, k]` matrix whose column `c` is row `off + c` of a `[Rows, K]` weight
  (`rowsT`): a torch-style weight `[out, in]`, cut into gates along `out` and applied as `x · Wᵀ`. A block of consecutive
  entries of a row times a matrix is the row times the matching block of the matrix's columns. The hyperbolic tangent
  acts entry by entry.
-/
import proofs.«137769_j54142357734073_1_alg».proof.Proof.LibRowMaps
import proofs.«137769_j54142357734073_1_alg».proof.Proof.LibRowOfVector

noncomputable section

open scoped BigOperators

namespace Idealize.ShloMosaic.Rowwise

open Idealize.ShloMosaic Idealize.ShloMosaic.ValueIdx

variable {R n : Nat} {φ : FTy}

/-! ## The hyperbolic tangent, entry by entry -/

theorem row_tanh (A : FVec Ideal ⟨2, ![R, n]⟩ φ) (p : Fin R) :
    row (tanh A) p = fun q => Ideal.tanh (row A p q) := rfl

theorem row_hostTanh (A : FVec Ideal ⟨2, ![R, n]⟩ φ) (p : Fin R) :
    row (Host.tanh A) p = fun q => Ideal.tanh (row A p q) := rfl

/-! ## One row repeated down the rows -/

/-- A vector's entries by position. -/
def vec (x : (⟨1, ![n]⟩ : Shape).Idx → EReal) : Fin n → EReal := fun q => x (ix1 q)

/-- The kernel's broadcast of a `[1, n]` array to `[R, n]`: every row is the one row. -/
theorem row_broadcastTo_row (v : (⟨2, ![1, n]⟩ : Shape).Idx → EReal)
    (h : (⟨2, ![1, n]⟩ : Shape).Broadcasts ⟨2, ![R, n]⟩) (p : Fin R) :
    row (broadcastTo ⟨2, ![R, n]⟩ v h) p = row v 0 := by
  funext q
  show broadcastTo ⟨2, ![R, n]⟩ v h (ix2 p q) = v (ix2 0 q)
  refine broadcastTo_apply v h (ix2 p q) (ix2 0 q) fun a => ?_
  match a with
  | ⟨0, _⟩ =>
    show (0 : ℕ) = if (1 : ℕ) = 1 then 0 else p.val
    rw [if_pos rfl]
  | ⟨1, _⟩ =>
    show q.val = if n = 1 then 0 else q.val
    split
    · have := q.isLt; omega
    · rfl

/-- The host's broadcast of a `[1, n]` array to `[R, n]`, both axes kept in place: the same. -/
theorem row_broadcastInDim_row (v : (⟨2, ![1, n]⟩ : Shape).Idx → EReal)
    (h : (⟨2, ![1, n]⟩ : Shape).BroadcastsInDim ⟨2, ![R, n]⟩ ![0, 1]) (p : Fin R) :
    row (broadcastInDim ⟨2, ![R, n]⟩ ![0, 1] h v) p = row v 0 := by
  funext q
  show broadcastInDim ⟨2, ![R, n]⟩ ![0, 1] h v (ix2 p q) = v (ix2 0 q)
  refine broadcastInDim_apply ![0, 1] h v (ix2 p q) (ix2 0 q) fun a => ?_
  match a with
  | ⟨0, _⟩ =>
    show (0 : ℕ) = if (1 : ℕ) = 1 then 0 else p.val
    rw [if_pos rfl]
  | ⟨1, _⟩ =>
    show q.val = if n = 1 then 0 else q.val
    split
    · have := q.isLt; omega
    · rfl

/-- The host's layout of an `[n]` vector as a `[1, n]` array, the vector's axis sent to the columns. -/
theorem row_vector_as_row (x : (⟨1, ![n]⟩ : Shape).Idx → EReal)
    (h : (⟨1, ![n]⟩ : Shape).BroadcastsInDim ⟨2, ![1, n]⟩ ![1]) :
    row (broadcastInDim ⟨2, ![1, n]⟩ ![1] h x) 0 = vec x := by
  funext q
  show broadcastInDim ⟨2, ![1, n]⟩ ![1] h x (ix2 0 q) = x (ix1 q)
  refine broadcastInDim_apply ![1] h x (ix2 0 q) (ix1 q) fun a => ?_
  match a with
  | ⟨0, _⟩ =>
    show q.val = if n = 1 then 0 else q.val
    split
    · have := q.isLt; omega
    · rfl

/-- An `[n]` vector recast as a `[1, n]` array: the same row. -/
theorem row_reshape_vector (x : (⟨1, ![n]⟩ : Shape).Idx → EReal) (h : (⟨1, ![n]⟩ : Shape).ShapeCasts ⟨2, ![1, n]⟩) :
    row (shapeCast ⟨2, ![1, n]⟩ x h) 0 = vec x :=
  funext fun q => RowOfVector.apply x h q

/-! ## A weight read by its two coordinates -/

/-- The transpose of a matrix, by coordinates. -/
def matT {N K : Nat} (W : Fin N → Fin K → EReal) : Fin K → Fin N → EReal := fun k c => W c k

/-- The `[K, k]` matrix whose column `c` is row `off + c` of a `[Rows, K]` matrix: the transpose of a block of rows. -/
def rowsT {Rows K : Nat} (off k : Nat) (h : off + k ≤ Rows) (W : Fin Rows → Fin K → EReal) : Fin K → Fin k → EReal :=
  fun kk c => W ⟨off + c.val, by have := c.isLt; omega⟩ kk

/-- The transpose of an `[N, K]` array is read with its coordinates swapped. -/
theorem mat_transpose {N K : Nat} (B : (⟨2, ![N, K]⟩ : Shape).Idx → EReal)
    (h : (⟨2, ![N, K]⟩ : Shape).Transposes [1, 0] ⟨2, ![K, N]⟩) :
    mat (transpose ⟨2, ![K, N]⟩ [1, 0] B h) = matT (mat B) := by
  funext k c
  show transpose ⟨2, ![K, N]⟩ [1, 0] B h (ix2 k c) = B (ix2 c k)
  exact transpose_apply [1, 0] B h (ix2 k c) (ix2 c k) (fun b => match b with
    | ⟨0, _⟩ => rfl
    | ⟨1, _⟩ => rfl)

/-- A block of `k` rows at `off` lies inside the matrix. -/
theorem rowBlock_le {Rows K k off : Nat} (h : (⟨2, ![Rows, K]⟩ : Shape).Slices ![off, 0] ⟨2, ![k, K]⟩) : off + k ≤ Rows :=
  h.2 0

/-- The transpose of the block of rows `off ≤ · < off + k` of a matrix is `rowsT` of the matrix. -/
theorem mat_transpose_rowBlock {Rows K k : Nat} (off : Nat) (B : (⟨2, ![Rows, K]⟩ : Shape).Idx → EReal)
    (hs : (⟨2, ![Rows, K]⟩ : Shape).Slices ![off, 0] ⟨2, ![k, K]⟩)
    (ht : (⟨2, ![k, K]⟩ : Shape).Transposes [1, 0] ⟨2, ![K, k]⟩) :
    mat (transpose ⟨2, ![K, k]⟩ [1, 0] (extractStridedSlice ⟨2, ![k, K]⟩ ![off, 0] B hs) ht)
      = rowsT off k (rowBlock_le hs) (mat B) := by
  rw [mat_transpose]
  funext kk c
  show extractStridedSlice ⟨2, ![k, K]⟩ ![off, 0] B hs (ix2 c kk) = B (ix2 ⟨off + c.val, _⟩ kk)
  refine extractStridedSlice_apply ![off, 0] B hs (ix2 c kk) _ (fun a => ?_)
  match a with
  | ⟨0, _⟩ => rfl
  | ⟨1, _⟩ => show kk.val = 0 + kk.val; omega

/-- A block of consecutive entries of a row times a matrix: the row times that block of the matrix's columns. -/
theorem cols_dense {K N : Nat} (off k : Nat) (h : off + k ≤ N) (a : Fin K → EReal) (W : Fin K → Fin N → EReal) :
    cols off k h (dense a W) = dense a (fun kk c => W kk ⟨off + c.val, by have := c.isLt; omega⟩) := rfl

/-- Columns `off ≤ · < off + k` of the transpose of a `[Rows, K]` matrix are `rowsT` of the matrix. -/
theorem cols_dense_matT {Rows K : Nat} (off k : Nat) (h : off + k ≤ Rows) (a : Fin K → EReal) (W : Fin Rows → Fin K → EReal) :
    cols off k h (dense a (matT W)) = dense a (rowsT off k h W) := rfl

end Idealize.ShloMosaic.Rowwise

end
-- ==== Proof.CellSpec.lean ====
/-
  One row of the recurrent cell and of its two output heads.

  Every sample (row `b` of the batch) is handled by itself. Write `h` for its previous hidden state (896 entries), `y`
  for its two previous outputs, `cc` for its current coarse output, and `f = (y, cc)` for the three fine inputs. A gate's
  pre-activation at hidden unit `q` is

      h · Wr[:, q]  +  (y · Wc ‖ f · Wf)[q]  +  b[q],

  the recurrent product plus the coarse and fine input products set side by side (448 + 448 = 896 units) plus a bias.
  With `σ` the logistic function:

      u = σ(pre_u),   r = σ(pre_r),   e = tanh(r ⊙ (h · Wre) + (y · Wce ‖ f · Wfe) + be),
      hidden = u ⊙ h + (1 − u) ⊙ e.

  Each head takes one half of the new hidden state through a dense layer with a rectifier and a second dense layer:

      out = max(x · W1 + b1, 0) · W2 + b2.

  All of it on the extended reals, with sums over `Fin K` (their order does not matter) and the sum and product chains
  bracketed as written above. The constants `1` and `0` are kept as the float words both programs spell.
-/
import proofs.«137769_j54142357734073_1_alg».proof.Proof.LibRowLayouts

noncomputable section

namespace Cert.Cell

open Idealize.ShloMosaic Idealize.ShloMosaic.Rowwise

/-- The float `1.0`. -/
abbrev one : EReal := Ideal.ofBits .f32 0x3F800000#32
/-- The float `0.0`. -/
abbrev zero : EReal := Ideal.ofBits .f32 0x00000000#32

theorem w3 : 3 = 2 + 1 := rfl
theorem w896 : 896 = 448 + 448 := rfl

/-- A gate's pre-activation: recurrent part, the two input parts side by side, bias. -/
def pre (h : Fin 896 → EReal) (y : Fin 2 → EReal) (f : Fin 3 → EReal)
    (Wr : Fin 896 → Fin 896 → EReal) (Wc : Fin 2 → Fin 448 → EReal) (Wf : Fin 3 → Fin 448 → EReal)
    (b : Fin 896 → EReal) : Fin 896 → EReal :=
  fun q => dense h Wr q + join w896 (dense y Wc) (dense f Wf) q + b q

/-- A logistic gate. -/
def gate (h : Fin 896 → EReal) (y : Fin 2 → EReal) (f : Fin 3 → EReal)
    (Wr : Fin 896 → Fin 896 → EReal) (Wc : Fin 2 → Fin 448 → EReal) (Wf : Fin 3 → Fin 448 → EReal)
    (b : Fin 896 → EReal) : Fin 896 → EReal :=
  fun q => Ideal.logistic (pre h y f Wr Wc Wf b q)

/-- The candidate state: the reset gate scales the recurrent part only. -/
def cand (r : Fin 896 → EReal) (h : Fin 896 → EReal) (y : Fin 2 → EReal) (f : Fin 3 → EReal)
    (Wr : Fin 896 → Fin 896 → EReal) (Wc : Fin 2 → Fin 448 → EReal) (Wf : Fin 3 → Fin 448 → EReal)
    (b : Fin 896 → EReal) : Fin 896 → EReal :=
  fun q => Ideal.tanh (r q * dense h Wr q + join w896 (dense y Wc) (dense f Wf) q + b q)

/-- The update gate blends the old state and the candidate. -/
def blend (u h e : Fin 896 → EReal) : Fin 896 → EReal :=
  fun q => u q * h q + (one - u q) * e q

/-- The new hidden state of one sample. -/
def hidden (h : Fin 896 → EReal) (y : Fin 2 → EReal) (cc : Fin 1 → EReal)
    (Wru Wrr Wre : Fin 896 → Fin 896 → EReal) (Wcu Wcr Wce : Fin 2 → Fin 448 → EReal)
    (Wfu Wfr Wfe : Fin 3 → Fin 448 → EReal) (bu br be : Fin 896 → EReal) : Fin 896 → EReal :=
  blend (gate h y (join w3 y cc) Wru Wcu Wfu bu) h
    (cand (gate h y (join w3 y cc) Wrr Wcr Wfr br) h y (join w3 y cc) Wre Wce Wfe be)

/-- One output head on one half of the hidden state. -/
def head (x : Fin 448 → EReal) (W1 : Fin 448 → Fin 448 → EReal) (b1 : Fin 448 → EReal)
    (W2 : Fin 448 → Fin 256 → EReal) (b2 : Fin 256 → EReal) : Fin 256 → EReal :=
  fun q => dense (floorAt zero (fun j => dense x W1 j + b1 j)) W2 q + b2 q

/-- The first 448 hidden units. -/
def lo (x : Fin 896 → EReal) : Fin 448 → EReal := cols 0 448 (by omega) x
/-- The last 448 hidden units. -/
def hi (x : Fin 896 → EReal) : Fin 448 → EReal := cols 448 448 (by omega) x

/-- The float word of `1.0` is the number one. -/
theorem one_eq : one = 1 := by
  show Ideal.ofBits .f32 0x3F800000#32 = 1
  simp [Ideal.ofBits, Ideal.ieee, -EReal.coe_mul]
  norm_num

/-- The logistic function spelt with the host's operations and the float word of one: the same function. -/
theorem logistic_spelt (x : EReal) : Ideal.div one (one + Ideal.exp (-x)) = Ideal.logistic x := by
  rw [one_eq]
  rfl

end Cert.Cell

end
-- ==== Proof.KernelRows.lean ====
/-
  The kernel's body, one row of a block at a time.

  The body works on a block of 256 samples. Its values are products with fixed weight matrices, entrywise maps, column
  blocks and side-by-side joins, so row `p` of each value is a function of row `p` of the three sample blocks and of the
  weights: the new hidden state's row is `Cell.hidden`, and each head's row is `Cell.head` on one half of it. A change
  of float format does nothing at the ideal values.
-/
import proofs.«137769_j54142357734073_1_alg».proof.Proof.Gen.KernelIdeal.Frame
import proofs.«137769_j54142357734073_1_alg».proof.Proof.CellSpec

set_option maxRecDepth 16384

noncomputable section

namespace Cert.KernelIdeal.Rows

open Cert.KernelIdeal Cert.KernelIdeal.Gen Idealize.ShloMosaic Idealize.ShloMosaic.TcCoe Idealize.ShloMosaic.Rowwise Cert.Cell

/-! ## The five products' dimension numbers are the plain ones -/

theorem dims_h : dot_S256x896_S896x896_S256x896_1_0_0_1_n_n = DotDims.plain 256 896 896 := rfl
theorem dims_y : dot_S256x2_S2x448_S256x448_1_0_0_1_n_n = DotDims.plain 256 2 448 := rfl
theorem dims_f : dot_S256x3_S3x448_S256x448_1_0_0_1_n_n = DotDims.plain 256 3 448 := rfl
theorem dims_a : dot_S256x448_S448x448_S256x448_1_0_0_1_n_n = DotDims.plain 256 448 448 := rfl
theorem dims_b : dot_S256x448_S448x256_S256x256_1_0_0_1_n_n = DotDims.plain 256 448 256 := rfl

/-! ## The new hidden state -/

/-- Row `p` of the stored hidden block is the cell's new hidden state of sample `p` of the block. -/
theorem row_hidden (x0 : Vec Ideal S256x2 .f32) (x1 : Vec Ideal S256x896 .f32) (x2 : Vec Ideal S256x1 .f32)
    (w3 w4 w5 : Vec Ideal S896x896 .bf16) (w6 w7 w8 : Vec Ideal S2x448 .bf16) (w9 w10 w11 : Vec Ideal S3x448 .bf16)
    (b12 b13 b14 : Vec Ideal S1x896 .f32) (p : Fin 256) :
    row (k0_pay14 (F := Ideal) x1 (k0_pay5 x0 x2) (k0_pay6 x1 w3) (k0_pay7 x1 w4) (k0_pay8 x1 w5) (k0_pay9 x0 w6)
        (k0_pay10 x0 w7) (k0_pay11 x0 w8) (k0_pay12 x0 x2 w9) (k0_pay13 w10) w11 b12 b13 b14) p
      = hidden (row x1 p) (row x0 p) (row x2 p) (mat w3) (mat w4) (mat w5) (mat w6) (mat w7) (mat w8)
          (mat w9) (mat w10) (mat w11) (row b12 0) (row b13 0) (row b14 0) := by
  unfold k0_pay14 k0_pay6 k0_pay7 k0_pay8 k0_pay9 k0_pay10 k0_pay11 k0_pay12 k0_pay13 k0_pay5 k0_pay3 k0_pay4
  simp only [dims_h, dims_y, dims_f, row_addf, row_mulf, row_subf, row_logistic, row_tanh, row_matmul, row_concat,
    row_broadcastTo_row, row_shapeCast_self, mat_shapeCast_self, row_truncf, mat_truncf, row_broadcast, Ideal.ofBits_def]
  rfl

/-! ## The two heads -/

section heads

variable (v0 : Vec Ideal S256x896 .f32) (v6 : FVec Ideal S256x3 .bf16) (v9 v12 v15 : FVec Ideal S256x896 .f32)
  (v18 v21 v24 v27 : FVec Ideal S256x448 .f32) (v29 : FVec Ideal S3x448 .bf16) (v31 : Vec Ideal S3x448 .bf16)
  (v38 v44 v51 : Vec Ideal S1x896 .f32)

/-- Row `p` of the stored coarse block: the head on the first half of the new hidden state's row. -/
theorem row_coarse (x15 : Vec Ideal S448x448 .bf16) (x16 : Vec Ideal S1x448 .f32) (x17 : Vec Ideal S448x256 .bf16)
    (x18 : Vec Ideal S1x256 .f32) (p : Fin 256) :
    row (k0_pay1 (F := Ideal) (k0_pay16 v0 v6 v9 v12 v15 v18 v21 v24 v27 v29 v31 v38 v44 v51 x15) (k0_pay17 x16) x17 x18) p
      = head (lo (row (k0_pay14 (F := Ideal) v0 v6 v9 v12 v15 v18 v21 v24 v27 v29 v31 v38 v44 v51) p))
          (mat x15) (row x16 0) (mat x17) (row x18 0) := by
  unfold k0_pay1 k0_pay16 k0_pay17
  simp only [dims_a, dims_b, row_addf, row_matmul, row_maximumf_broadcast, row_broadcastTo_row, row_shapeCast_self,
    mat_shapeCast_self, row_truncf, mat_truncf, row_slice, Ideal.ofBits_def]
  rfl

/-- Row `p` of the stored fine block: the head on the second half of the new hidden state's row. -/
theorem row_fine (x19 : Vec Ideal S448x448 .bf16) (x20 : Vec Ideal S1x448 .f32) (x21 : Vec Ideal S448x256 .bf16)
    (x22 : Vec Ideal S1x256 .f32) (p : Fin 256) :
    row (k0_pay2 (F := Ideal) (k0_pay15 v0 v6 v9 v12 v15 v18 v21 v24 v27 v29 v31 v38 v44 v51) x19 x20 x21 x22) p
      = head (hi (row (k0_pay14 (F := Ideal) v0 v6 v9 v12 v15 v18 v21 v24 v27 v29 v31 v38 v44 v51) p))
          (mat x19) (row x20 0) (mat x21) (row x22 0) := by
  unfold k0_pay2 k0_pay15
  simp only [dims_a, dims_b, row_addf, row_matmul, row_maximumf_broadcast, row_broadcastTo_row, row_shapeCast_self,
    mat_shapeCast_self, row_truncf, mat_truncf, row_slice, Ideal.ofBits_def]
  rfl

end heads

/-! ## What the body leaves in each output block, row by row -/

theorem hz : (![0, 0] : Fin 2 → Nat) = fun _ => 0 := funext fun a => by fin_cases a <;> rfl

section outs

variable (x0 : Vec Ideal S256x2 .f32) (x1 : Vec Ideal S256x896 .f32) (x2 : Vec Ideal S256x1 .f32) (x3 x4 x5 : Vec Ideal S896x896 .bf16) (x6 x7 x8 : Vec Ideal S2x448 .bf16) (x9 x10 x11 : Vec Ideal S3x448 .bf16) (x12 x13 x14 : Vec Ideal S1x896 .f32) (x15 : Vec Ideal S448x448 .bf16) (x16 : Vec Ideal S1x448 .f32) (x17 : Vec Ideal S448x256 .bf16) (x18 : Vec Ideal S1x256 .f32) (x19 : Vec Ideal S448x448 .bf16) (x20 : Vec Ideal S1x448 .f32) (x21 : Vec Ideal S448x256 .bf16) (x22 : Vec Ideal S1x256 .f32)

/-- Row `p` of the hidden block the body stores. -/
theorem row_out25 (p : Fin 256) :
    row (out0_25 (F := Ideal) x0 x1 x2 x3 x4 x5 x6 x7 x8 x9 x10 x11 x12 x13 x14 x15 x16 x17 x18 x19 x20 x21 x22) p
      = hidden (row x1 p) (row x0 p) (row x2 p) (mat x3) (mat x4) (mat x5) (mat x6) (mat x7) (mat x8)
          (mat x9) (mat x10) (mat x11) (row x12 0) (row x13 0) (row x14 0) := by
  unfold out0_25
  rw [View.canon_unit_zero hz]
  simp only [View.ld_unit_zero (S := S256x896) hz, View.ld_unit_zero (S := S256x2) hz, View.ld_unit_zero (S := S256x1) hz, View.ld_unit_zero (S := S896x896) hz, View.ld_unit_zero (S := S2x448) hz, View.ld_unit_zero (S := S3x448) hz, View.ld_unit_zero (S := S1x896) hz, View.ld_unit_zero (S := S448x448) hz, View.ld_unit_zero (S := S1x448) hz, View.ld_unit_zero (S := S448x256) hz, View.ld_unit_zero (S := S1x256) hz, View.ld_unit_zero (S := S256x256) hz]
  exact row_hidden x0 x1 x2 x3 x4 x5 x6 x7 x8 x9 x10 x11 x12 x13 x14 p

/-- Row `p` of the coarse block the body stores. -/
theorem row_out23 (p : Fin 256) :
    row (out0_23 (F := Ideal) x0 x1 x2 x3 x4 x5 x6 x7 x8 x9 x10 x11 x12 x13 x14 x15 x16 x17 x18 x19 x20 x21 x22) p
      = head (lo (hidden (row x1 p) (row x0 p) (row x2 p) (mat x3) (mat x4) (mat x5) (mat x6) (mat x7) (mat x8)
          (mat x9) (mat x10) (mat x11) (row x12 0) (row x13 0) (row x14 0)))
          (mat x15) (row x16 0) (mat x17) (row x18 0) := by
  unfold out0_23
  rw [View.canon_unit_zero hz]
  simp only [View.ld_unit_zero (S := S256x896) hz, View.ld_unit_zero (S := S256x2) hz, View.ld_unit_zero (S := S256x1) hz, View.ld_unit_zero (S := S896x896) hz, View.ld_unit_zero (S := S2x448) hz, View.ld_unit_zero (S := S3x448) hz, View.ld_unit_zero (S := S1x896) hz, View.ld_unit_zero (S := S448x448) hz, View.ld_unit_zero (S := S1x448) hz, View.ld_unit_zero (S := S448x256) hz, View.ld_unit_zero (S := S1x256) hz, View.ld_unit_zero (S := S256x256) hz]
  rw [row_coarse, row_hidden]

/-- Row `p` of the fine block the body stores. -/
theorem row_out24 (p : Fin 256) :
    row (out0_24 (F := Ideal) x0 x1 x2 x3 x4 x5 x6 x7 x8 x9 x10 x11 x12 x13 x14 x15 x16 x17 x18 x19 x20 x21 x22) p
      = head (hi (hidden (row x1 p) (row x0 p) (row x2 p) (mat x3) (mat x4) (mat x5) (mat x6) (mat x7) (mat x8)
          (mat x9) (mat x10) (mat x11) (row x12 0) (row x13 0) (row x14 0)))
          (mat x19) (row x20 0) (mat x21) (row x22 0) := by
  unfold out0_24
  rw [View.canon_unit_zero hz]
  simp only [View.ld_unit_zero (S := S256x896) hz, View.ld_unit_zero (S := S256x2) hz, View.ld_unit_zero (S := S256x1) hz, View.ld_unit_zero (S := S896x896) hz, View.ld_unit_zero (S := S2x448) hz, View.ld_unit_zero (S := S3x448) hz, View.ld_unit_zero (S := S1x896) hz, View.ld_unit_zero (S := S448x448) hz, View.ld_unit_zero (S := S1x448) hz, View.ld_unit_zero (S := S448x256) hz, View.ld_unit_zero (S := S1x256) hz, View.ld_unit_zero (S := S256x256) hz]
  rw [row_fine, row_hidden]

end outs

end Cert.KernelIdeal.Rows

end
-- ==== Proof.KernelWeightsA.lean ====
/-
  The gate weights as the region finds them. Before the region the host cuts each stacked weight `[3·out, in]` into its three gates' blocks of rows, transposes each block and narrows it to bf16 (nothing at the ideal values): window `w`'s array, read by its two coordinates, is `rowsT` of the argument.
-/
import proofs.«137769_j54142357734073_1_alg».proof.Proof.Gen.KernelIdeal.Frame
import proofs.«137769_j54142357734073_1_alg».proof.Proof.CellSpec
import Idealize.ShloMosaic.Lib.StableHlo.Run

set_option maxRecDepth 16384

noncomputable section

namespace Cert.KernelIdeal.Weights

open Cert.KernelIdeal Cert.KernelIdeal.Gen Idealize.ShloMosaic Idealize.ShloMosaic.TcCoe Idealize.SL.Sem
  Idealize.ShloMosaic.StableHlo Idealize.ShloMosaic.Rowwise Cert.Cell

variable (m : (ℓ : Loc nD τ sig) → Buf (Elt Ideal) ℓ)

/-- Window 3's array: rows 0 to 895 of the stacked weight, transposed. -/
theorem arr3 (c : Dev nD) : (V m c main_v4 : S896x896.Idx → EReal)
    = truncf (F := Ideal) .bf16 (transpose S896x896 [1, 0] (extractStridedSlice S896x896 ![0, 0] (m ((c : Thread nD τ).loc main_arg3)) slices_S2688x896_S896x896_0_0) transposes_S896x896_S896x896_1_0) bitsLt_bf16_f32 := by
  dsimp only [V, hostOps0]
  after_results
  try rfl

theorem mat3 (c : Dev nD) : mat (V m c main_v4 : S896x896.Idx → EReal) = rowsT 0 896 (by omega) (mat (m ((c : Thread nD τ).loc main_arg3))) := by
  rw [arr3, mat_truncf, mat_transpose_rowBlock]

/-- Window 4's array: rows 896 to 1791 of the stacked weight, transposed. -/
theorem arr4 (c : Dev nD) : (V m c main_v6 : S896x896.Idx → EReal)
    = truncf (F := Ideal) .bf16 (transpose S896x896 [1, 0] (extractStridedSlice S896x896 ![896, 0] (m ((c : Thread nD τ).loc main_arg3)) slices_S2688x896_S896x896_896_0) transposes_S896x896_S896x896_1_0) bitsLt_bf16_f32 := by
  dsimp only [V, hostOps0]
  after_results
  try rfl

theorem mat4 (c : Dev nD) : mat (V m c main_v6 : S896x896.Idx → EReal) = rowsT 896 896 (by omega) (mat (m ((c : Thread nD τ).loc main_arg3))) := by
  rw [arr4, mat_truncf, mat_transpose_rowBlock]

/-- Window 5's array: rows 1792 to 2687 of the stacked weight, transposed. -/
theorem arr5 (c : Dev nD) : (V m c main_v8 : S896x896.Idx → EReal)
    = truncf (F := Ideal) .bf16 (transpose S896x896 [1, 0] (extractStridedSlice S896x896 ![1792, 0] (m ((c : Thread nD τ).loc main_arg3)) slices_S2688x896_S896x896_1792_0) transposes_S896x896_S896x896_1_0) bitsLt_bf16_f32 := by
  dsimp only [V, hostOps0]
  after_results
  try rfl

theorem mat5 (c : Dev nD) : mat (V m c main_v8 : S896x896.Idx → EReal) = rowsT 1792 896 (by omega) (mat (m ((c : Thread nD τ).loc main_arg3))) := by
  rw [arr5, mat_truncf, mat_transpose_rowBlock]

/-- Window 6's array: rows 0 to 447 of the stacked weight, transposed. -/
theorem arr6 (c : Dev nD) : (V m c main_v13 : S2x448.Idx → EReal)
    = truncf (F := Ideal) .bf16 (transpose S2x448 [1, 0] (extractStridedSlice S448x2 ![0, 0] (m ((c : Thread nD τ).loc main_arg4)) slices_S1344x2_S448x2_0_0) transposes_S448x2_S2x448_1_0) bitsLt_bf16_f32 := by
  dsimp only [V, hostOps0]
  after_results
  try rfl

theorem mat6 (c : Dev nD) : mat (V m c main_v13 : S2x448.Idx → EReal) = rowsT 0 448 (by omega) (mat (m ((c : Thread nD τ).loc main_arg4))) := by
  rw [arr6, mat_truncf, mat_transpose_rowBlock]

/-- Window 7's array: rows 448 to 895 of the stacked weight, transposed. -/
theorem arr7 (c : Dev nD) : (V m c main_v15 : S2x448.Idx → EReal)
    = truncf (F := Ideal) .bf16 (transpose S2x448 [1, 0] (extractStridedSlice S448x2 ![448, 0] (m ((c : Thread nD τ).loc main_arg4)) slices_S1344x2_S448x2_448_0) transposes_S448x2_S2x448_1_0) bitsLt_bf16_f32 := by
  dsimp only [V, hostOps0]
  after_results
  try rfl

theorem mat7 (c : Dev nD) : mat (V m c main_v15 : S2x448.Idx → EReal) = rowsT 448 448 (by omega) (mat (m ((c : Thread nD τ).loc main_arg4))) := by
  rw [arr7, mat_truncf, mat_transpose_rowBlock]

/-- Window 8's array: rows 896 to 1343 of the stacked weight, transposed. -/
theorem arr8 (c : Dev nD) : (V m c main_v17 : S2x448.Idx → EReal)
    = truncf (F := Ideal) .bf16 (transpose S2x448 [1, 0] (extractStridedSlice S448x2 ![896, 0] (m ((c : Thread nD τ).loc main_arg4)) slices_S1344x2_S448x2_896_0) transposes_S448x2_S2x448_1_0) bitsLt_bf16_f32 := by
  dsimp only [V, hostOps0]
  after_results
  try rfl

theorem mat8 (c : Dev nD) : mat (V m c main_v17 : S2x448.Idx → EReal) = rowsT 896 448 (by omega) (mat (m ((c : Thread nD τ).loc main_arg4))) := by
  rw [arr8, mat_truncf, mat_transpose_rowBlock]

/-- Window 9's array: rows 0 to 447 of the stacked weight, transposed. -/
theorem arr9 (c : Dev nD) : (V m c main_v22 : S3x448.Idx → EReal)
    = truncf (F := Ideal) .bf16 (transpose S3x448 [1, 0] (extractStridedSlice S448x3 ![0, 0] (m ((c : Thread nD τ).loc main_arg5)) slices_S1344x3_S448x3_0_0) transposes_S448x3_S3x448_1_0) bitsLt_bf16_f32 := by
  dsimp only [V, hostOps0]
  after_results
  try rfl

theorem mat9 (c : Dev nD) : mat (V m c main_v22 : S3x448.Idx → EReal) = rowsT 0 448 (by omega) (mat (m ((c : Thread nD τ).loc main_arg5))) := by
  rw [arr9, mat_truncf, mat_transpose_rowBlock]

/-- Window 10's array: rows 448 to 895 of the stacked weight, transposed. -/
theorem arr10 (c : Dev nD) : (V m c main_v24 : S3x448.Idx → EReal)
    = truncf (F := Ideal) .bf16 (transpose S3x448 [1, 0] (extractStridedSlice S448x3 ![448, 0] (m ((c : Thread nD τ).loc main_arg5)) slices_S1344x3_S448x3_448_0) transposes_S448x3_S3x448_1_0) bitsLt_bf16_f32 := by
  dsimp only [V, hostOps0]
  after_results
  try rfl

theorem mat10 (c : Dev nD) : mat (V m c main_v24 : S3x448.Idx → EReal) = rowsT 448 448 (by omega) (mat (m ((c : Thread nD τ).loc main_arg5))) := by
  rw [arr10, mat_truncf, mat_transpose_rowBlock]

/-- Window 11's array: rows 896 to 1343 of the stacked weight, transposed. -/
theorem arr11 (c : Dev nD) : (V m c main_v26 : S3x448.Idx → EReal)
    = truncf (F := Ideal) .bf16 (transpose S3x448 [1, 0] (extractStridedSlice S448x3 ![896, 0] (m ((c : Thread nD τ).loc main_arg5)) slices_S1344x3_S448x3_896_0) transposes_S448x3_S3x448_1_0) bitsLt_bf16_f32 := by
  dsimp only [V, hostOps0]
  after_results
  try rfl

theorem mat11 (c : Dev nD) : mat (V m c main_v26 : S3x448.Idx → EReal) = rowsT 896 448 (by omega) (mat (m ((c : Thread nD τ).loc main_arg5))) := by
  rw [arr11, mat_truncf, mat_transpose_rowBlock]

end Cert.KernelIdeal.Weights

end
-- ==== Proof.KernelWeightsB.lean ====
/-
  The biases and the heads' weights as the region finds them. Before the region the host lays each bias vector out as a one-row array and transposes each head weight `[out, in]` (narrowing it to bf16, nothing at the ideal values): a bias window's only row is the vector, a weight window's array by coordinates is the argument's transpose.
-/
import proofs.«137769_j54142357734073_1_alg».proof.Proof.Gen.KernelIdeal.Frame
import proofs.«137769_j54142357734073_1_alg».proof.Proof.CellSpec
import Idealize.ShloMosaic.Lib.StableHlo.Run

set_option maxRecDepth 16384

noncomputable section

namespace Cert.KernelIdeal.Weights

open Cert.KernelIdeal Cert.KernelIdeal.Gen Idealize.ShloMosaic Idealize.ShloMosaic.TcCoe Idealize.SL.Sem
  Idealize.ShloMosaic.StableHlo Idealize.ShloMosaic.Rowwise Cert.Cell

variable (m : (ℓ : Loc nD τ sig) → Buf (Elt Ideal) ℓ)

/-- Window 12's array: the bias vector as one row. -/
theorem arr12 (c : Dev nD) : (V m c main_v35 : S1x896.Idx → EReal)
    = shapeCast S1x896 (m ((c : Thread nD τ).loc main_arg6)) shapeCasts_S896_S1x896 := by
  dsimp only [V, hostOps0]
  after_results
  try rfl

theorem bias12 (c : Dev nD) : row (V m c main_v35 : S1x896.Idx → EReal) 0 = vec (m ((c : Thread nD τ).loc main_arg6)) := by
  rw [arr12, row_reshape_vector]

/-- Window 13's array: the bias vector as one row. -/
theorem arr13 (c : Dev nD) : (V m c main_v36 : S1x896.Idx → EReal)
    = shapeCast S1x896 (m ((c : Thread nD τ).loc main_arg7)) shapeCasts_S896_S1x896 := by
  dsimp only [V, hostOps0]
  after_results
  try rfl

theorem bias13 (c : Dev nD) : row (V m c main_v36 : S1x896.Idx → EReal) 0 = vec (m ((c : Thread nD τ).loc main_arg7)) := by
  rw [arr13, row_reshape_vector]

/-- Window 14's array: the bias vector as one row. -/
theorem arr14 (c : Dev nD) : (V m c main_v37 : S1x896.Idx → EReal)
    = shapeCast S1x896 (m ((c : Thread nD τ).loc main_arg8)) shapeCasts_S896_S1x896 := by
  dsimp only [V, hostOps0]
  after_results
  try rfl

theorem bias14 (c : Dev nD) : row (V m c main_v37 : S1x896.Idx → EReal) 0 = vec (m ((c : Thread nD τ).loc main_arg8)) := by
  rw [arr14, row_reshape_vector]

/-- Window 15's array: the weight transposed. -/
theorem arr15 (c : Dev nD) : (V m c main_v28 : S448x448.Idx → EReal)
    = truncf (F := Ideal) .bf16 (transpose S448x448 [1, 0] (m ((c : Thread nD τ).loc main_arg9)) transposes_S448x448_S448x448_1_0) bitsLt_bf16_f32 := by
  dsimp only [V, hostOps0]
  after_results
  try rfl

theorem mat15 (c : Dev nD) : mat (V m c main_v28 : S448x448.Idx → EReal) = matT (mat (m ((c : Thread nD τ).loc main_arg9))) := by
  rw [arr15, mat_truncf, mat_transpose]

/-- Window 16's array: the bias vector as one row. -/
theorem arr16 (c : Dev nD) : (V m c main_v38 : S1x448.Idx → EReal)
    = shapeCast S1x448 (m ((c : Thread nD τ).loc main_arg10)) shapeCasts_S448_S1x448 := by
  dsimp only [V, hostOps0]
  after_results
  try rfl

theorem bias16 (c : Dev nD) : row (V m c main_v38 : S1x448.Idx → EReal) 0 = vec (m ((c : Thread nD τ).loc main_arg10)) := by
  rw [arr16, row_reshape_vector]

/-- Window 17's array: the weight transposed. -/
theorem arr17 (c : Dev nD) : (V m c main_v30 : S448x256.Idx → EReal)
    = truncf (F := Ideal) .bf16 (transpose S448x256 [1, 0] (m ((c : Thread nD τ).loc main_arg11)) transposes_S256x448_S448x256_1_0) bitsLt_bf16_f32 := by
  dsimp only [V, hostOps0]
  after_results
  try rfl

theorem mat17 (c : Dev nD) : mat (V m c main_v30 : S448x256.Idx → EReal) = matT (mat (m ((c : Thread nD τ).loc main_arg11))) := by
  rw [arr17, mat_truncf, mat_transpose]

/-- Window 18's array: the bias vector as one row. -/
theorem arr18 (c : Dev nD) : (V m c main_v39 : S1x256.Idx → EReal)
    = shapeCast S1x256 (m ((c : Thread nD τ).loc main_arg12)) shapeCasts_S256_S1x256 := by
  dsimp only [V, hostOps0]
  after_results
  try rfl

theorem bias18 (c : Dev nD) : row (V m c main_v39 : S1x256.Idx → EReal) 0 = vec (m ((c : Thread nD τ).loc main_arg12)) := by
  rw [arr18, row_reshape_vector]

/-- Window 19's array: the weight transposed. -/
theorem arr19 (c : Dev nD) : (V m c main_v32 : S448x448.Idx → EReal)
    = truncf (F := Ideal) .bf16 (transpose S448x448 [1, 0] (m ((c : Thread nD τ).loc main_arg13)) transposes_S448x448_S448x448_1_0) bitsLt_bf16_f32 := by
  dsimp only [V, hostOps0]
  after_results
  try rfl

theorem mat19 (c : Dev nD) : mat (V m c main_v32 : S448x448.Idx → EReal) = matT (mat (m ((c : Thread nD τ).loc main_arg13))) := by
  rw [arr19, mat_truncf, mat_transpose]

/-- Window 20's array: the bias vector as one row. -/
theorem arr20 (c : Dev nD) : (V m c main_v40 : S1x448.Idx → EReal)
    = shapeCast S1x448 (m ((c : Thread nD τ).loc main_arg14)) shapeCasts_S448_S1x448 := by
  dsimp only [V, hostOps0]
  after_results
  try rfl

theorem bias20 (c : Dev nD) : row (V m c main_v40 : S1x448.Idx → EReal) 0 = vec (m ((c : Thread nD τ).loc main_arg14)) := by
  rw [arr20, row_reshape_vector]

/-- Window 21's array: the weight transposed. -/
theorem arr21 (c : Dev nD) : (V m c main_v34 : S448x256.Idx → EReal)
    = truncf (F := Ideal) .bf16 (transpose S448x256 [1, 0] (m ((c : Thread nD τ).loc main_arg15)) transposes_S256x448_S448x256_1_0) bitsLt_bf16_f32 := by
  dsimp only [V, hostOps0]
  after_results
  try rfl

theorem mat21 (c : Dev nD) : mat (V m c main_v34 : S448x256.Idx → EReal) = matT (mat (m ((c : Thread nD τ).loc main_arg15))) := by
  rw [arr21, mat_truncf, mat_transpose]

/-- Window 22's array: the bias vector as one row. -/
theorem arr22 (c : Dev nD) : (V m c main_v41 : S1x256.Idx → EReal)
    = shapeCast S1x256 (m ((c : Thread nD τ).loc main_arg16)) shapeCasts_S256_S1x256 := by
  dsimp only [V, hostOps0]
  after_results
  try rfl

theorem bias22 (c : Dev nD) : row (V m c main_v41 : S1x256.Idx → EReal) 0 = vec (m ((c : Thread nD τ).loc main_arg16)) := by
  rw [arr22, row_reshape_vector]

end Cert.KernelIdeal.Weights

end
-- ==== Proof.KernelBlocks.lean ====
/-
  The windows' blocks as rows of their arrays.

  The grid has 64 points; point `t` handles samples `256 t` to `256 t + 255`. The three sample windows and the three
  output windows move with the point (block index `(t, 0)`), so row `p` of such a block is row `256 t + p` of its array;
  every weight and bias window keeps block index `(0, 0)` and its block is its whole array. The output blocks tile their
  arrays: sample `b` lies in the block of point `b / 256`.
-/
import proofs.«137769_j54142357734073_1_alg».proof.Proof.Gen.KernelIdeal.Frame
import proofs.«137769_j54142357734073_1_alg».proof.Proof.KernelWeightsA
import proofs.«137769_j54142357734073_1_alg».proof.Proof.KernelWeightsB

set_option maxRecDepth 16384

noncomputable section

namespace Cert.KernelIdeal.Blocks

open Cert.KernelIdeal Cert.KernelIdeal.Gen Idealize.ShloMosaic Idealize.ShloMosaic.TcCoe Idealize.SL.Sem
  Idealize.ShloMosaic.Rowwise Idealize.ShloMosaic.ValueIdx Cert.Cell

variable (m : (ℓ : Loc nD τ sig) → Buf (Elt Ideal) ℓ)

/-- Sample `p` of point `t`'s block is sample `256 t + p` of the batch. -/
def samp (t : Fin cfg0.N) (p : Fin 256) : Fin 16384 :=
  ⟨256 * t.val + p.val, by have := t.isLt; have h : cfg0.N = 64 := N_0; have := p.isLt; omega⟩

/-- The moving windows' block indices, decided over the grid. -/
theorem idx_batch : ∀ t : Fin cfg0.N,
    win0_0.index t (0 : Fin 2) = t.val ∧ win0_0.index t (1 : Fin 2) = 0 ∧
    win0_1.index t (0 : Fin 2) = t.val ∧ win0_1.index t (1 : Fin 2) = 0 ∧
    win0_2.index t (0 : Fin 2) = t.val ∧ win0_2.index t (1 : Fin 2) = 0 ∧
    win0_23.index t (0 : Fin 2) = t.val ∧ win0_23.index t (1 : Fin 2) = 0 ∧
    win0_24.index t (0 : Fin 2) = t.val ∧ win0_24.index t (1 : Fin 2) = 0 ∧
    win0_25.index t (0 : Fin 2) = t.val ∧ win0_25.index t (1 : Fin 2) = 0 :=
  (by decide +kernel : ∀ t : Fin grid0.N, _)

/-! ## The sample windows -/

/-- Row `p` of window 0's block at point `t` is row `256 t + p` of its argument. -/
theorem row_blk0 (c : Dev nD) (t : Fin cfg0.N) (p : Fin 256) :
    row (iblk m c 0 t : Vec Ideal S256x2 .f32) p = row ((m ((c : Thread nD τ).loc main_arg0)) : S16384x2.Idx → EReal) (samp t p) := by
  funext k
  show (iblk m c 0 t : Vec Ideal S256x2 .f32) (ix2 p k) = ((m ((c : Thread nD τ).loc main_arg0)) : S16384x2.Idx → EReal) (ix2 (samp t p) k)
  unfold iblk
  rw [View.read_apply]
  show V m c main_arg0 _ = _
  rw [V_main_arg0]
  congr 1
  funext a
  apply Fin.ext
  obtain ⟨e0, e1, -, -, -, -, -, -, -, -, -, -⟩ := idx_batch t
  match a with
  | ⟨0, _⟩ => show win0_0.index t (0 : Fin 2) * 256 + 1 * p.val = 256 * t.val + p.val; rw [e0]; omega
  | ⟨1, _⟩ => show win0_0.index t (1 : Fin 2) * 2 + 1 * k.val = k.val; rw [e1]; omega

/-- Row `p` of window 1's block at point `t` is row `256 t + p` of its argument. -/
theorem row_blk1 (c : Dev nD) (t : Fin cfg0.N) (p : Fin 256) :
    row (iblk m c 1 t : Vec Ideal S256x896 .f32) p = row ((m ((c : Thread nD τ).loc main_arg1)) : S16384x896.Idx → EReal) (samp t p) := by
  funext k
  show (iblk m c 1 t : Vec Ideal S256x896 .f32) (ix2 p k) = ((m ((c : Thread nD τ).loc main_arg1)) : S16384x896.Idx → EReal) (ix2 (samp t p) k)
  unfold iblk
  rw [View.read_apply]
  show V m c main_arg1 _ = _
  rw [V_main_arg1]
  congr 1
  funext a
  apply Fin.ext
  obtain ⟨-, -, e0, e1, -, -, -, -, -, -, -, -⟩ := idx_batch t
  match a with
  | ⟨0, _⟩ => show win0_1.index t (0 : Fin 2) * 256 + 1 * p.val = 256 * t.val + p.val; rw [e0]; omega
  | ⟨1, _⟩ => show win0_1.index t (1 : Fin 2) * 896 + 1 * k.val = k.val; rw [e1]; omega

/-- Row `p` of window 2's block at point `t` is row `256 t + p` of its argument. -/
theorem row_blk2 (c : Dev nD) (t : Fin cfg0.N) (p : Fin 256) :
    row (iblk m c 2 t : Vec Ideal S256x1 .f32) p = row ((m ((c : Thread nD τ).loc main_arg2)) : S16384x1.Idx → EReal) (samp t p) := by
  funext k
  show (iblk m c 2 t : Vec Ideal S256x1 .f32) (ix2 p k) = ((m ((c : Thread nD τ).loc main_arg2)) : S16384x1.Idx → EReal) (ix2 (samp t p) k)
  unfold iblk
  rw [View.read_apply]
  show V m c main_arg2 _ = _
  rw [V_main_arg2]
  congr 1
  funext a
  apply Fin.ext
  obtain ⟨-, -, -, -, e0, e1, -, -, -, -, -, -⟩ := idx_batch t
  match a with
  | ⟨0, _⟩ => show win0_2.index t (0 : Fin 2) * 256 + 1 * p.val = 256 * t.val + p.val; rw [e0]; omega
  | ⟨1, _⟩ => show win0_2.index t (1 : Fin 2) * 1 + 1 * k.val = k.val; rw [e1]; omega

/-! ## The weight and bias windows -/

theorem idx3 : ∀ t : Fin cfg0.N, win0_3.index t (0 : Fin 2) = 0 ∧ win0_3.index t (1 : Fin 2) = 0 :=
  (by decide +kernel : ∀ t : Fin grid0.N, _)

/-- Window 3's block is its whole array at every point. -/
theorem blk3 (c : Dev nD) (t : Fin cfg0.N) :
    (iblk m c 3 t : Vec Ideal S896x896 .bf16) = (V m c main_v4 : S896x896.Idx → EReal) := by
  funext y
  unfold iblk
  rw [View.read_apply]
  show V m c main_v4 _ = V m c main_v4 y
  congr 1
  funext a
  apply Fin.ext
  obtain ⟨e0, e1⟩ := idx3 t
  match a with
  | ⟨0, _⟩ => show win0_3.index t (0 : Fin 2) * 896 + 1 * (y 0).val = (y 0).val; rw [e0]; omega
  | ⟨1, _⟩ => show win0_3.index t (1 : Fin 2) * 896 + 1 * (y 1).val = (y 1).val; rw [e1]; omega

theorem wmat3 (c : Dev nD) (t : Fin cfg0.N) :
    mat (iblk m c 3 t : Vec Ideal S896x896 .bf16) = rowsT 0 896 (by omega) (mat (m ((c : Thread nD τ).loc main_arg3))) :=
  (congrArg (fun A : S896x896.Idx → EReal => mat A) (blk3 m c t)).trans (Weights.mat3 m c)

theorem idx4 : ∀ t : Fin cfg0.N, win0_4.index t (0 : Fin 2) = 0 ∧ win0_4.index t (1 : Fin 2) = 0 :=
  (by decide +kernel : ∀ t : Fin grid0.N, _)

/-- Window 4's block is its whole array at every point. -/
theorem blk4 (c : Dev nD) (t : Fin cfg0.N) :
    (iblk m c 4 t : Vec Ideal S896x896 .bf16) = (V m c main_v6 : S896x896.Idx → EReal) := by
  funext y
  unfold iblk
  rw [View.read_apply]
  show V m c main_v6 _ = V m c main_v6 y
  congr 1
  funext a
  apply Fin.ext
  obtain ⟨e0, e1⟩ := idx4 t
  match a with
  | ⟨0, _⟩ => show win0_4.index t (0 : Fin 2) * 896 + 1 * (y 0).val = (y 0).val; rw [e0]; omega
  | ⟨1, _⟩ => show win0_4.index t (1 : Fin 2) * 896 + 1 * (y 1).val = (y 1).val; rw [e1]; omega

theorem wmat4 (c : Dev nD) (t : Fin cfg0.N) :
    mat (iblk m c 4 t : Vec Ideal S896x896 .bf16) = rowsT 896 896 (by omega) (mat (m ((c : Thread nD τ).loc main_arg3))) :=
  (congrArg (fun A : S896x896.Idx → EReal => mat A) (blk4 m c t)).trans (Weights.mat4 m c)

theorem idx5 : ∀ t : Fin cfg0.N, win0_5.index t (0 : Fin 2) = 0 ∧ win0_5.index t (1 : Fin 2) = 0 :=
  (by decide +kernel : ∀ t : Fin grid0.N, _)

/-- Window 5's block is its whole array at every point. -/
theorem blk5 (c : Dev nD) (t : Fin cfg0.N) :
    (iblk m c 5 t : Vec Ideal S896x896 .bf16) = (V m c main_v8 : S896x896.Idx → EReal) := by
  funext y
  unfold iblk
  rw [View.read_apply]
  show V m c main_v8 _ = V m c main_v8 y
  congr 1
  funext a
  apply Fin.ext
  obtain ⟨e0, e1⟩ := idx5 t
  match a with
  | ⟨0, _⟩ => show win0_5.index t (0 : Fin 2) * 896 + 1 * (y 0).val = (y 0).val; rw [e0]; omega
  | ⟨1, _⟩ => show win0_5.index t (1 : Fin 2) * 896 + 1 * (y 1).val = (y 1).val; rw [e1]; omega

theorem wmat5 (c : Dev nD) (t : Fin cfg0.N) :
    mat (iblk m c 5 t : Vec Ideal S896x896 .bf16) = rowsT 1792 896 (by omega) (mat (m ((c : Thread nD τ).loc main_arg3))) :=
  (congrArg (fun A : S896x896.Idx → EReal => mat A) (blk5 m c t)).trans (Weights.mat5 m c)

theorem idx6 : ∀ t : Fin cfg0.N, win0_6.index t (0 : Fin 2) = 0 ∧ win0_6.index t (1 : Fin 2) = 0 :=
  (by decide +kernel : ∀ t : Fin grid0.N, _)

/-- Window 6's block is its whole array at every point. -/
theorem blk6 (c : Dev nD) (t : Fin cfg0.N) :
    (iblk m c 6 t : Vec Ideal S2x448 .bf16) = (V m c main_v13 : S2x448.Idx → EReal) := by
  funext y
  unfold iblk
  rw [View.read_apply]
  show V m c main_v13 _ = V m c main_v13 y
  congr 1
  funext a
  apply Fin.ext
  obtain ⟨e0, e1⟩ := idx6 t
  match a with
  | ⟨0, _⟩ => show win0_6.index t (0 : Fin 2) * 2 + 1 * (y 0).val = (y 0).val; rw [e0]; omega
  | ⟨1, _⟩ => show win0_6.index t (1 : Fin 2) * 448 + 1 * (y 1).val = (y 1).val; rw [e1]; omega

theorem wmat6 (c : Dev nD) (t : Fin cfg0.N) :
    mat (iblk m c 6 t : Vec Ideal S2x448 .bf16) = rowsT 0 448 (by omega) (mat (m ((c : Thread nD τ).loc main_arg4))) :=
  (congrArg (fun A : S2x448.Idx → EReal => mat A) (blk6 m c t)).trans (Weights.mat6 m c)

theorem idx7 : ∀ t : Fin cfg0.N, win0_7.index t (0 : Fin 2) = 0 ∧ win0_7.index t (1 : Fin 2) = 0 :=
  (by decide +kernel : ∀ t : Fin grid0.N, _)

/-- Window 7's block is its whole array at every point. -/
theorem blk7 (c : Dev nD) (t : Fin cfg0.N) :
    (iblk m c 7 t : Vec Ideal S2x448 .bf16) = (V m c main_v15 : S2x448.Idx → EReal) := by
  funext y
  unfold iblk
  rw [View.read_apply]
  show V m c main_v15 _ = V m c main_v15 y
  congr 1
  funext a
  apply Fin.ext
  obtain ⟨e0, e1⟩ := idx7 t
  match a with
  | ⟨0, _⟩ => show win0_7.index t (0 : Fin 2) * 2 + 1 * (y 0).val = (y 0).val; rw [e0]; omega
  | ⟨1, _⟩ => show win0_7.index t (1 : Fin 2) * 448 + 1 * (y 1).val = (y 1).val; rw [e1]; omega

theorem wmat7 (c : Dev nD) (t : Fin cfg0.N) :
    mat (iblk m c 7 t : Vec Ideal S2x448 .bf16) = rowsT 448 448 (by omega) (mat (m ((c : Thread nD τ).loc main_arg4))) :=
  (congrArg (fun A : S2x448.Idx → EReal => mat A) (blk7 m c t)).trans (Weights.mat7 m c)

theorem idx8 : ∀ t : Fin cfg0.N, win0_8.index t (0 : Fin 2) = 0 ∧ win0_8.index t (1 : Fin 2) = 0 :=
  (by decide +kernel : ∀ t : Fin grid0.N, _)

/-- Window 8's block is its whole array at every point. -/
theorem blk8 (c : Dev nD) (t : Fin cfg0.N) :
    (iblk m c 8 t : Vec Ideal S2x448 .bf16) = (V m c main_v17 : S2x448.Idx → EReal) := by
  funext y
  unfold iblk
  rw [View.read_apply]
  show V m c main_v17 _ = V m c main_v17 y
  congr 1
  funext a
  apply Fin.ext
  obtain ⟨e0, e1⟩ := idx8 t
  match a with
  | ⟨0, _⟩ => show win0_8.index t (0 : Fin 2) * 2 + 1 * (y 0).val = (y 0).val; rw [e0]; omega
  | ⟨1, _⟩ => show win0_8.index t (1 : Fin 2) * 448 + 1 * (y 1).val = (y 1).val; rw [e1]; omega

theorem wmat8 (c : Dev nD) (t : Fin cfg0.N) :
    mat (iblk m c 8 t : Vec Ideal S2x448 .bf16) = rowsT 896 448 (by omega) (mat (m ((c : Thread nD τ).loc main_arg4))) :=
  (congrArg (fun A : S2x448.Idx → EReal => mat A) (blk8 m c t)).trans (Weights.mat8 m c)

theorem idx9 : ∀ t : Fin cfg0.N, win0_9.index t (0 : Fin 2) = 0 ∧ win0_9.index t (1 : Fin 2) = 0 :=
  (by decide +kernel : ∀ t : Fin grid0.N, _)

/-- Window 9's block is its whole array at every point. -/
theorem blk9 (c : Dev nD) (t : Fin cfg0.N) :
    (iblk m c 9 t : Vec Ideal S3x448 .bf16) = (V m c main_v22 : S3x448.Idx → EReal) := by
  funext y
  unfold iblk
  rw [View.read_apply]
  show V m c main_v22 _ = V m c main_v22 y
  congr 1
  funext a
  apply Fin.ext
  obtain ⟨e0, e1⟩ := idx9 t
  match a with
  | ⟨0, _⟩ => show win0_9.index t (0 : Fin 2) * 3 + 1 * (y 0).val = (y 0).val; rw [e0]; omega
  | ⟨1, _⟩ => show win0_9.index t (1 : Fin 2) * 448 + 1 * (y 1).val = (y 1).val; rw [e1]; omega

theorem wmat9 (c : Dev nD) (t : Fin cfg0.N) :
    mat (iblk m c 9 t : Vec Ideal S3x448 .bf16) = rowsT 0 448 (by omega) (mat (m ((c : Thread nD τ).loc main_arg5))) :=
  (congrArg (fun A : S3x448.Idx → EReal => mat A) (blk9 m c t)).trans (Weights.mat9 m c)

theorem idx10 : ∀ t : Fin cfg0.N, win0_10.index t (0 : Fin 2) = 0 ∧ win0_10.index t (1 : Fin 2) = 0 :=
  (by decide +kernel : ∀ t : Fin grid0.N, _)

/-- Window 10's block is its whole array at every point. -/
theorem blk10 (c : Dev nD) (t : Fin cfg0.N) :
    (iblk m c 10 t : Vec Ideal S3x448 .bf16) = (V m c main_v24 : S3x448.Idx → EReal) := by
  funext y
  unfold iblk
  rw [View.read_apply]
  show V m c main_v24 _ = V m c main_v24 y
  congr 1
  funext a
  apply Fin.ext
  obtain ⟨e0, e1⟩ := idx10 t
  match a with
  | ⟨0, _⟩ => show win0_10.index t (0 : Fin 2) * 3 + 1 * (y 0).val = (y 0).val; rw [e0]; omega
  | ⟨1, _⟩ => show win0_10.index t (1 : Fin 2) * 448 + 1 * (y 1).val = (y 1).val; rw [e1]; omega

theorem wmat10 (c : Dev nD) (t : Fin cfg0.N) :
    mat (iblk m c 10 t : Vec Ideal S3x448 .bf16) = rowsT 448 448 (by omega) (mat (m ((c : Thread nD τ).loc main_arg5))) :=
  (congrArg (fun A : S3x448.Idx → EReal => mat A) (blk10 m c t)).trans (Weights.mat10 m c)

theorem idx11 : ∀ t : Fin cfg0.N, win0_11.index t (0 : Fin 2) = 0 ∧ win0_11.index t (1 : Fin 2) = 0 :=
  (by decide +kernel : ∀ t : Fin grid0.N, _)

/-- Window 11's block is its whole array at every point. -/
theorem blk11 (c : Dev nD) (t : Fin cfg0.N) :
    (iblk m c 11 t : Vec Ideal S3x448 .bf16) = (V m c main_v26 : S3x448.Idx → EReal) := by
  funext y
  unfold iblk
  rw [View.read_apply]
  show V m c main_v26 _ = V m c main_v26 y
  congr 1
  funext a
  apply Fin.ext
  obtain ⟨e0, e1⟩ := idx11 t
  match a with
  | ⟨0, _⟩ => show win0_11.index t (0 : Fin 2) * 3 + 1 * (y 0).val = (y 0).val; rw [e0]; omega
  | ⟨1, _⟩ => show win0_11.index t (1 : Fin 2) * 448 + 1 * (y 1).val = (y 1).val; rw [e1]; omega

theorem wmat11 (c : Dev nD) (t : Fin cfg0.N) :
    mat (iblk m c 11 t : Vec Ideal S3x448 .bf16) = rowsT 896 448 (by omega) (mat (m ((c : Thread nD τ).loc main_arg5))) :=
  (congrArg (fun A : S3x448.Idx → EReal => mat A) (blk11 m c t)).trans (Weights.mat11 m c)

theorem idx12 : ∀ t : Fin cfg0.N, win0_12.index t (0 : Fin 2) = 0 ∧ win0_12.index t (1 : Fin 2) = 0 :=
  (by decide +kernel : ∀ t : Fin grid0.N, _)

/-- Window 12's block is its whole array at every point. -/
theorem blk12 (c : Dev nD) (t : Fin cfg0.N) :
    (iblk m c 12 t : Vec Ideal S1x896 .f32) = (V m c main_v35 : S1x896.Idx → EReal) := by
  funext y
  unfold iblk
  rw [View.read_apply]
  show V m c main_v35 _ = V m c main_v35 y
  congr 1
  funext a
  apply Fin.ext
  obtain ⟨e0, e1⟩ := idx12 t
  match a with
  | ⟨0, _⟩ => show win0_12.index t (0 : Fin 2) * 1 + 1 * (y 0).val = (y 0).val; rw [e0]; omega
  | ⟨1, _⟩ => show win0_12.index t (1 : Fin 2) * 896 + 1 * (y 1).val = (y 1).val; rw [e1]; omega

theorem wbias12 (c : Dev nD) (t : Fin cfg0.N) :
    row (iblk m c 12 t : Vec Ideal S1x896 .f32) 0 = vec (m ((c : Thread nD τ).loc main_arg6)) :=
  (congrArg (fun A : S1x896.Idx → EReal => row A 0) (blk12 m c t)).trans (Weights.bias12 m c)

theorem idx13 : ∀ t : Fin cfg0.N, win0_13.index t (0 : Fin 2) = 0 ∧ win0_13.index t (1 : Fin 2) = 0 :=
  (by decide +kernel : ∀ t : Fin grid0.N, _)

/-- Window 13's block is its whole array at every point. -/
theorem blk13 (c : Dev nD) (t : Fin cfg0.N) :
    (iblk m c 13 t : Vec Ideal S1x896 .f32) = (V m c main_v36 : S1x896.Idx → EReal) := by
  funext y
  unfold iblk
  rw [View.read_apply]
  show V m c main_v36 _ = V m c main_v36 y
  congr 1
  funext a
  apply Fin.ext
  obtain ⟨e0, e1⟩ := idx13 t
  match a with
  | ⟨0, _⟩ => show win0_13.index t (0 : Fin 2) * 1 + 1 * (y 0).val = (y 0).val; rw [e0]; omega
  | ⟨1, _⟩ => show win0_13.index t (1 : Fin 2) * 896 + 1 * (y 1).val = (y 1).val; rw [e1]; omega

theorem wbias13 (c : Dev nD) (t : Fin cfg0.N) :
    row (iblk m c 13 t : Vec Ideal S1x896 .f32) 0 = vec (m ((c : Thread nD τ).loc main_arg7)) :=
  (congrArg (fun A : S1x896.Idx → EReal => row A 0) (blk13 m c t)).trans (Weights.bias13 m c)

theorem idx14 : ∀ t : Fin cfg0.N, win0_14.index t (0 : Fin 2) = 0 ∧ win0_14.index t (1 : Fin 2) = 0 :=
  (by decide +kernel : ∀ t : Fin grid0.N, _)

/-- Window 14's block is its whole array at every point. -/
theorem blk14 (c : Dev nD) (t : Fin cfg0.N) :
    (iblk m c 14 t : Vec Ideal S1x896 .f32) = (V m c main_v37 : S1x896.Idx → EReal) := by
  funext y
  unfold iblk
  rw [View.read_apply]
  show V m c main_v37 _ = V m c main_v37 y
  congr 1
  funext a
  apply Fin.ext
  obtain ⟨e0, e1⟩ := idx14 t
  match a with
  | ⟨0, _⟩ => show win0_14.index t (0 : Fin 2) * 1 + 1 * (y 0).val = (y 0).val; rw [e0]; omega
  | ⟨1, _⟩ => show win0_14.index t (1 : Fin 2) * 896 + 1 * (y 1).val = (y 1).val; rw [e1]; omega

theorem wbias14 (c : Dev nD) (t : Fin cfg0.N) :
    row (iblk m c 14 t : Vec Ideal S1x896 .f32) 0 = vec (m ((c : Thread nD τ).loc main_arg8)) :=
  (congrArg (fun A : S1x896.Idx → EReal => row A 0) (blk14 m c t)).trans (Weights.bias14 m c)

theorem idx15 : ∀ t : Fin cfg0.N, win0_15.index t (0 : Fin 2) = 0 ∧ win0_15.index t (1 : Fin 2) = 0 :=
  (by decide +kernel : ∀ t : Fin grid0.N, _)

/-- Window 15's block is its whole array at every point. -/
theorem blk15 (c : Dev nD) (t : Fin cfg0.N) :
    (iblk m c 15 t : Vec Ideal S448x448 .bf16) = (V m c main_v28 : S448x448.Idx → EReal) := by
  funext y
  unfold iblk
  rw [View.read_apply]
  show V m c main_v28 _ = V m c main_v28 y
  congr 1
  funext a
  apply Fin.ext
  obtain ⟨e0, e1⟩ := idx15 t
  match a with
  | ⟨0, _⟩ => show win0_15.index t (0 : Fin 2) * 448 + 1 * (y 0).val = (y 0).val; rw [e0]; omega
  | ⟨1, _⟩ => show win0_15.index t (1 : Fin 2) * 448 + 1 * (y 1).val = (y 1).val; rw [e1]; omega

theorem wmat15 (c : Dev nD) (t : Fin cfg0.N) :
    mat (iblk m c 15 t : Vec Ideal S448x448 .bf16) = matT (mat (m ((c : Thread nD τ).loc main_arg9))) :=
  (congrArg (fun A : S448x448.Idx → EReal => mat A) (blk15 m c t)).trans (Weights.mat15 m c)

theorem idx16 : ∀ t : Fin cfg0.N, win0_16.index t (0 : Fin 2) = 0 ∧ win0_16.index t (1 : Fin 2) = 0 :=
  (by decide +kernel : ∀ t : Fin grid0.N, _)

/-- Window 16's block is its whole array at every point. -/
theorem blk16 (c : Dev nD) (t : Fin cfg0.N) :
    (iblk m c 16 t : Vec Ideal S1x448 .f32) = (V m c main_v38 : S1x448.Idx → EReal) := by
  funext y
  unfold iblk
  rw [View.read_apply]
  show V m c main_v38 _ = V m c main_v38 y
  congr 1
  funext a
  apply Fin.ext
  obtain ⟨e0, e1⟩ := idx16 t
  match a with
  | ⟨0, _⟩ => show win0_16.index t (0 : Fin 2) * 1 + 1 * (y 0).val = (y 0).val; rw [e0]; omega
  | ⟨1, _⟩ => show win0_16.index t (1 : Fin 2) * 448 + 1 * (y 1).val = (y 1).val; rw [e1]; omega

theorem wbias16 (c : Dev nD) (t : Fin cfg0.N) :
    row (iblk m c 16 t : Vec Ideal S1x448 .f32) 0 = vec (m ((c : Thread nD τ).loc main_arg10)) :=
  (congrArg (fun A : S1x448.Idx → EReal => row A 0) (blk16 m c t)).trans (Weights.bias16 m c)

theorem idx17 : ∀ t : Fin cfg0.N, win0_17.index t (0 : Fin 2) = 0 ∧ win0_17.index t (1 : Fin 2) = 0 :=
  (by decide +kernel : ∀ t : Fin grid0.N, _)

/-- Window 17's block is its whole array at every point. -/
theorem blk17 (c : Dev nD) (t : Fin cfg0.N) :
    (iblk m c 17 t : Vec Ideal S448x256 .bf16) = (V m c main_v30 : S448x256.Idx → EReal) := by
  funext y
  unfold iblk
  rw [View.read_apply]
  show V m c main_v30 _ = V m c main_v30 y
  congr 1
  funext a
  apply Fin.ext
  obtain ⟨e0, e1⟩ := idx17 t
  match a with
  | ⟨0, _⟩ => show win0_17.index t (0 : Fin 2) * 448 + 1 * (y 0).val = (y 0).val; rw [e0]; omega
  | ⟨1, _⟩ => show win0_17.index t (1 : Fin 2) * 256 + 1 * (y 1).val = (y 1).val; rw [e1]; omega

theorem wmat17 (c : Dev nD) (t : Fin cfg0.N) :
    mat (iblk m c 17 t : Vec Ideal S448x256 .bf16) = matT (mat (m ((c : Thread nD τ).loc main_arg11))) :=
  (congrArg (fun A : S448x256.Idx → EReal => mat A) (blk17 m c t)).trans (Weights.mat17 m c)

theorem idx18 : ∀ t : Fin cfg0.N, win0_18.index t (0 : Fin 2) = 0 ∧ win0_18.index t (1 : Fin 2) = 0 :=
  (by decide +kernel : ∀ t : Fin grid0.N, _)

/-- Window 18's block is its whole array at every point. -/
theorem blk18 (c : Dev nD) (t : Fin cfg0.N) :
    (iblk m c 18 t : Vec Ideal S1x256 .f32) = (V m c main_v39 : S1x256.Idx → EReal) := by
  funext y
  unfold iblk
  rw [View.read_apply]
  show V m c main_v39 _ = V m c main_v39 y
  congr 1
  funext a
  apply Fin.ext
  obtain ⟨e0, e1⟩ := idx18 t
  match a with
  | ⟨0, _⟩ => show win0_18.index t (0 : Fin 2) * 1 + 1 * (y 0).val = (y 0).val; rw [e0]; omega
  | ⟨1, _⟩ => show win0_18.index t (1 : Fin 2) * 256 + 1 * (y 1).val = (y 1).val; rw [e1]; omega

theorem wbias18 (c : Dev nD) (t : Fin cfg0.N) :
    row (iblk m c 18 t : Vec Ideal S1x256 .f32) 0 = vec (m ((c : Thread nD τ).loc main_arg12)) :=
  (congrArg (fun A : S1x256.Idx → EReal => row A 0) (blk18 m c t)).trans (Weights.bias18 m c)

theorem idx19 : ∀ t : Fin cfg0.N, win0_19.index t (0 : Fin 2) = 0 ∧ win0_19.index t (1 : Fin 2) = 0 :=
  (by decide +kernel : ∀ t : Fin grid0.N, _)

/-- Window 19's block is its whole array at every point. -/
theorem blk19 (c : Dev nD) (t : Fin cfg0.N) :
    (iblk m c 19 t : Vec Ideal S448x448 .bf16) = (V m c main_v32 : S448x448.Idx → EReal) := by
  funext y
  unfold iblk
  rw [View.read_apply]
  show V m c main_v32 _ = V m c main_v32 y
  congr 1
  funext a
  apply Fin.ext
  obtain ⟨e0, e1⟩ := idx19 t
  match a with
  | ⟨0, _⟩ => show win0_19.index t (0 : Fin 2) * 448 + 1 * (y 0).val = (y 0).val; rw [e0]; omega
  | ⟨1, _⟩ => show win0_19.index t (1 : Fin 2) * 448 + 1 * (y 1).val = (y 1).val; rw [e1]; omega

theorem wmat19 (c : Dev nD) (t : Fin cfg0.N) :
    mat (iblk m c 19 t : Vec Ideal S448x448 .bf16) = matT (mat (m ((c : Thread nD τ).loc main_arg13))) :=
  (congrArg (fun A : S448x448.Idx → EReal => mat A) (blk19 m c t)).trans (Weights.mat19 m c)

theorem idx20 : ∀ t : Fin cfg0.N, win0_20.index t (0 : Fin 2) = 0 ∧ win0_20.index t (1 : Fin 2) = 0 :=
  (by decide +kernel : ∀ t : Fin grid0.N, _)

/-- Window 20's block is its whole array at every point. -/
theorem blk20 (c : Dev nD) (t : Fin cfg0.N) :
    (iblk m c 20 t : Vec Ideal S1x448 .f32) = (V m c main_v40 : S1x448.Idx → EReal) := by
  funext y
  unfold iblk
  rw [View.read_apply]
  show V m c main_v40 _ = V m c main_v40 y
  congr 1
  funext a
  apply Fin.ext
  obtain ⟨e0, e1⟩ := idx20 t
  match a with
  | ⟨0, _⟩ => show win0_20.index t (0 : Fin 2) * 1 + 1 * (y 0).val = (y 0).val; rw [e0]; omega
  | ⟨1, _⟩ => show win0_20.index t (1 : Fin 2) * 448 + 1 * (y 1).val = (y 1).val; rw [e1]; omega

theorem wbias20 (c : Dev nD) (t : Fin cfg0.N) :
    row (iblk m c 20 t : Vec Ideal S1x448 .f32) 0 = vec (m ((c : Thread nD τ).loc main_arg14)) :=
  (congrArg (fun A : S1x448.Idx → EReal => row A 0) (blk20 m c t)).trans (Weights.bias20 m c)

theorem idx21 : ∀ t : Fin cfg0.N, win0_21.index t (0 : Fin 2) = 0 ∧ win0_21.index t (1 : Fin 2) = 0 :=
  (by decide +kernel : ∀ t : Fin grid0.N, _)

/-- Window 21's block is its whole array at every point. -/
theorem blk21 (c : Dev nD) (t : Fin cfg0.N) :
    (iblk m c 21 t : Vec Ideal S448x256 .bf16) = (V m c main_v34 : S448x256.Idx → EReal) := by
  funext y
  unfold iblk
  rw [View.read_apply]
  show V m c main_v34 _ = V m c main_v34 y
  congr 1
  funext a
  apply Fin.ext
  obtain ⟨e0, e1⟩ := idx21 t
  match a with
  | ⟨0, _⟩ => show win0_21.index t (0 : Fin 2) * 448 + 1 * (y 0).val = (y 0).val; rw [e0]; omega
  | ⟨1, _⟩ => show win0_21.index t (1 : Fin 2) * 256 + 1 * (y 1).val = (y 1).val; rw [e1]; omega

theorem wmat21 (c : Dev nD) (t : Fin cfg0.N) :
    mat (iblk m c 21 t : Vec Ideal S448x256 .bf16) = matT (mat (m ((c : Thread nD τ).loc main_arg15))) :=
  (congrArg (fun A : S448x256.Idx → EReal => mat A) (blk21 m c t)).trans (Weights.mat21 m c)

theorem idx22 : ∀ t : Fin cfg0.N, win0_22.index t (0 : Fin 2) = 0 ∧ win0_22.index t (1 : Fin 2) = 0 :=
  (by decide +kernel : ∀ t : Fin grid0.N, _)

/-- Window 22's block is its whole array at every point. -/
theorem blk22 (c : Dev nD) (t : Fin cfg0.N) :
    (iblk m c 22 t : Vec Ideal S1x256 .f32) = (V m c main_v41 : S1x256.Idx → EReal) := by
  funext y
  unfold iblk
  rw [View.read_apply]
  show V m c main_v41 _ = V m c main_v41 y
  congr 1
  funext a
  apply Fin.ext
  obtain ⟨e0, e1⟩ := idx22 t
  match a with
  | ⟨0, _⟩ => show win0_22.index t (0 : Fin 2) * 1 + 1 * (y 0).val = (y 0).val; rw [e0]; omega
  | ⟨1, _⟩ => show win0_22.index t (1 : Fin 2) * 256 + 1 * (y 1).val = (y 1).val; rw [e1]; omega

theorem wbias22 (c : Dev nD) (t : Fin cfg0.N) :
    row (iblk m c 22 t : Vec Ideal S1x256 .f32) 0 = vec (m ((c : Thread nD τ).loc main_arg16)) :=
  (congrArg (fun A : S1x256.Idx → EReal => row A 0) (blk22 m c t)).trans (Weights.bias22 m c)

/-! ## The output windows -/

/-- Output window 23: a block whose row `p` is row `256 t + p` of `G` is `G` read through point `t`'s block. -/
theorem cut23 (t : Fin cfg0.N) (P : Vec Ideal S256x256 .f32) (G : S16384x256.Idx → EReal)
    (h : ∀ p : Fin 256, row P p = row G (samp t p)) :
    (cfg0.win 23).cut (grid0.coords t) P = ((cfg0.win 23).blk t).view.read (Elt Ideal) G := by
  refine funext fun (j : S256x256.Idx) => ?_
  rw [View.read_apply]
  show P j = G (((cfg0.win 23).blk t).view.emb j)
  have e : ((cfg0.win 23).blk t).view.emb j = ix2 (samp t (j 0)) (j 1) := by
    funext a
    apply Fin.ext
    obtain ⟨-, -, -, -, -, -, e0, e1, -, -, -, -⟩ := idx_batch t
    match a with
    | ⟨0, _⟩ => show win0_23.index t (0 : Fin 2) * 256 + 1 * (j 0).val = 256 * t.val + (j 0).val; rw [e0]; omega
    | ⟨1, _⟩ => show win0_23.index t (1 : Fin 2) * 256 + 1 * (j 1).val = (j 1).val; rw [e1]; omega
  rw [e]
  exact (congrArg P (eq_ix2 (n0 := 256) (n1 := 256) j)).trans (congrFun (h (j 0)) (j 1))

theorem mem_blk23 (t : Fin cfg0.N) (i : S16384x256.Idx) :
    i ∈ ((cfg0.win 23).blk t).view.set ↔ ∀ a : Fin 2, win0_23.index t a * S256x256.size a ≤ (i a).val ∧ (i a).val < win0_23.index t a * S256x256.size a + S256x256.size a := by
  show i ∈ ((View.whole main_v42_0).slice (win0_23.rect t)).set ↔ _
  rw [View.set_slice_whole, Rect.mem_set_unit]
  exact Iff.rfl

/-- Every index of window 23's array lies in the block of the point its row falls in. -/
theorem cover23 (i : S16384x256.Idx) :
    ∃ t : Fin cfg0.N, (cfg0.win 23).flush t = true ∧ i ∈ ((cfg0.win 23).blk t).view.set := by
  have h0 : (i 0).val < 16384 := (i 0).isLt
  have h1 : (i 1).val < 256 := (i 1).isLt
  have hN : cfg0.N = 64 := N_0
  refine ⟨⟨(i 0).val / 256, by omega⟩, flush0_23 _, ?_⟩
  rw [mem_blk23]
  obtain ⟨-, -, -, -, -, -, e0, e1, -, -, -, -⟩ := idx_batch (⟨(i 0).val / 256, by omega⟩ : Fin cfg0.N)
  intro a
  match a with
  | ⟨0, _⟩ =>
    show win0_23.index _ (0 : Fin 2) * 256 ≤ (i 0).val ∧ (i 0).val < win0_23.index _ (0 : Fin 2) * 256 + 256
    rw [e0]
    show (i 0).val / 256 * 256 ≤ (i 0).val ∧ (i 0).val < (i 0).val / 256 * 256 + 256
    omega
  | ⟨1, _⟩ =>
    show win0_23.index _ (1 : Fin 2) * 256 ≤ (i 1).val ∧ (i 1).val < win0_23.index _ (1 : Fin 2) * 256 + 256
    rw [e1]
    omega

/-- Output window 24: a block whose row `p` is row `256 t + p` of `G` is `G` read through point `t`'s block. -/
theorem cut24 (t : Fin cfg0.N) (P : Vec Ideal S256x256 .f32) (G : S16384x256.Idx → EReal)
    (h : ∀ p : Fin 256, row P p = row G (samp t p)) :
    (cfg0.win 24).cut (grid0.coords t) P = ((cfg0.win 24).blk t).view.read (Elt Ideal) G := by
  refine funext fun (j : S256x256.Idx) => ?_
  rw [View.read_apply]
  show P j = G (((cfg0.win 24).blk t).view.emb j)
  have e : ((cfg0.win 24).blk t).view.emb j = ix2 (samp t (j 0)) (j 1) := by
    funext a
    apply Fin.ext
    obtain ⟨-, -, -, -, -, -, -, -, e0, e1, -, -⟩ := idx_batch t
    match a with
    | ⟨0, _⟩ => show win0_24.index t (0 : Fin 2) * 256 + 1 * (j 0).val = 256 * t.val + (j 0).val; rw [e0]; omega
    | ⟨1, _⟩ => show win0_24.index t (1 : Fin 2) * 256 + 1 * (j 1).val = (j 1).val; rw [e1]; omega
  rw [e]
  exact (congrArg P (eq_ix2 (n0 := 256) (n1 := 256) j)).trans (congrFun (h (j 0)) (j 1))

theorem mem_blk24 (t : Fin cfg0.N) (i : S16384x256.Idx) :
    i ∈ ((cfg0.win 24).blk t).view.set ↔ ∀ a : Fin 2, win0_24.index t a * S256x256.size a ≤ (i a).val ∧ (i a).val < win0_24.index t a * S256x256.size a + S256x256.size a := by
  show i ∈ ((View.whole main_v42_1).slice (win0_24.rect t)).set ↔ _
  rw [View.set_slice_whole, Rect.mem_set_unit]
  exact Iff.rfl

/-- Every index of window 24's array lies in the block of the point its row falls in. -/
theorem cover24 (i : S16384x256.Idx) :
    ∃ t : Fin cfg0.N, (cfg0.win 24).flush t = true ∧ i ∈ ((cfg0.win 24).blk t).view.set := by
  have h0 : (i 0).val < 16384 := (i 0).isLt
  have h1 : (i 1).val < 256 := (i 1).isLt
  have hN : cfg0.N = 64 := N_0
  refine ⟨⟨(i 0).val / 256, by omega⟩, flush0_24 _, ?_⟩
  rw [mem_blk24]
  obtain ⟨-, -, -, -, -, -, -, -, e0, e1, -, -⟩ := idx_batch (⟨(i 0).val / 256, by omega⟩ : Fin cfg0.N)
  intro a
  match a with
  | ⟨0, _⟩ =>
    show win0_24.index _ (0 : Fin 2) * 256 ≤ (i 0).val ∧ (i 0).val < win0_24.index _ (0 : Fin 2) * 256 + 256
    rw [e0]
    show (i 0).val / 256 * 256 ≤ (i 0).val ∧ (i 0).val < (i 0).val / 256 * 256 + 256
    omega
  | ⟨1, _⟩ =>
    show win0_24.index _ (1 : Fin 2) * 256 ≤ (i 1).val ∧ (i 1).val < win0_24.index _ (1 : Fin 2) * 256 + 256
    rw [e1]
    omega

/-- Output window 25: a block whose row `p` is row `256 t + p` of `G` is `G` read through point `t`'s block. -/
theorem cut25 (t : Fin cfg0.N) (P : Vec Ideal S256x896 .f32) (G : S16384x896.Idx → EReal)
    (h : ∀ p : Fin 256, row P p = row G (samp t p)) :
    (cfg0.win 25).cut (grid0.coords t) P = ((cfg0.win 25).blk t).view.read (Elt Ideal) G := by
  refine funext fun (j : S256x896.Idx) => ?_
  rw [View.read_apply]
  show P j = G (((cfg0.win 25).blk t).view.emb j)
  have e : ((cfg0.win 25).blk t).view.emb j = ix2 (samp t (j 0)) (j 1) := by
    funext a
    apply Fin.ext
    obtain ⟨-, -, -, -, -, -, -, -, -, -, e0, e1⟩ := idx_batch t
    match a with
    | ⟨0, _⟩ => show win0_25.index t (0 : Fin 2) * 256 + 1 * (j 0).val = 256 * t.val + (j 0).val; rw [e0]; omega
    | ⟨1, _⟩ => show win0_25.index t (1 : Fin 2) * 896 + 1 * (j 1).val = (j 1).val; rw [e1]; omega
  rw [e]
  exact (congrArg P (eq_ix2 (n0 := 256) (n1 := 896) j)).trans (congrFun (h (j 0)) (j 1))

theorem mem_blk25 (t : Fin cfg0.N) (i : S16384x896.Idx) :
    i ∈ ((cfg0.win 25).blk t).view.set ↔ ∀ a : Fin 2, win0_25.index t a * S256x896.size a ≤ (i a).val ∧ (i a).val < win0_25.index t a * S256x896.size a + S256x896.size a := by
  show i ∈ ((View.whole main_v42_2).slice (win0_25.rect t)).set ↔ _
  rw [View.set_slice_whole, Rect.mem_set_unit]
  exact Iff.rfl

/-- Every index of window 25's array lies in the block of the point its row falls in. -/
theorem cover25 (i : S16384x896.Idx) :
    ∃ t : Fin cfg0.N, (cfg0.win 25).flush t = true ∧ i ∈ ((cfg0.win 25).blk t).view.set := by
  have h0 : (i 0).val < 16384 := (i 0).isLt
  have h1 : (i 1).val < 896 := (i 1).isLt
  have hN : cfg0.N = 64 := N_0
  refine ⟨⟨(i 0).val / 256, by omega⟩, flush0_25 _, ?_⟩
  rw [mem_blk25]
  obtain ⟨-, -, -, -, -, -, -, -, -, -, e0, e1⟩ := idx_batch (⟨(i 0).val / 256, by omega⟩ : Fin cfg0.N)
  intro a
  match a with
  | ⟨0, _⟩ =>
    show win0_25.index _ (0 : Fin 2) * 256 ≤ (i 0).val ∧ (i 0).val < win0_25.index _ (0 : Fin 2) * 256 + 256
    rw [e0]
    show (i 0).val / 256 * 256 ≤ (i 0).val ∧ (i 0).val < (i 0).val / 256 * 256 + 256
    omega
  | ⟨1, _⟩ =>
    show win0_25.index _ (1 : Fin 2) * 896 ≤ (i 1).val ∧ (i 1).val < win0_25.index _ (1 : Fin 2) * 896 + 896
    rw [e1]
    omega

end Cert.KernelIdeal.Blocks

end
-- ==== Proof.CellArrays.lean ====
/-
  The three results as whole arrays.

  Row `b` of each result is the cell's function of row `b` of the three sample arrays, with every weight `[out, in]`
  applied as `x · Wᵀ` and the three gates' weights the three blocks of rows of the stacked weight: the new hidden state
  (`hiddenArr`), and the coarse and fine heads on its two halves (`coarseArr`, `fineArr`).
-/
import proofs.«137769_j54142357734073_1_alg».proof.Proof.CellSpec

noncomputable section

namespace Cert.Cell

open Idealize.ShloMosaic Idealize.ShloMosaic.Rowwise Idealize.ShloMosaic.ValueIdx

section

variable (y : (⟨2, ![16384, 2]⟩ : Shape).Idx → EReal) (h : (⟨2, ![16384, 896]⟩ : Shape).Idx → EReal) (cc : (⟨2, ![16384, 1]⟩ : Shape).Idx → EReal)
  (Rw : (⟨2, ![2688, 896]⟩ : Shape).Idx → EReal) (Icw : (⟨2, ![1344, 2]⟩ : Shape).Idx → EReal) (Ifw : (⟨2, ![1344, 3]⟩ : Shape).Idx → EReal) (bu br be : (⟨1, ![896]⟩ : Shape).Idx → EReal)

/-- Sample `b`'s new hidden state from the argument arrays. -/
def hiddenAt (b : Fin 16384) : Fin 896 → EReal :=
  hidden (row h b) (row y b) (row cc b)
    (rowsT 0 896 (by omega) (mat Rw)) (rowsT 896 896 (by omega) (mat Rw)) (rowsT 1792 896 (by omega) (mat Rw))
    (rowsT 0 448 (by omega) (mat Icw)) (rowsT 448 448 (by omega) (mat Icw)) (rowsT 896 448 (by omega) (mat Icw))
    (rowsT 0 448 (by omega) (mat Ifw)) (rowsT 448 448 (by omega) (mat Ifw)) (rowsT 896 448 (by omega) (mat Ifw))
    (vec bu) (vec br) (vec be)

/-- The new hidden state of every sample. -/
def hiddenArr : (⟨2, ![16384, 896]⟩ : Shape).Idx → EReal := fun i => hiddenAt y h cc Rw Icw Ifw bu br be (i 0) (i 1)

variable (W1 : (⟨2, ![448, 448]⟩ : Shape).Idx → EReal) (b1 : (⟨1, ![448]⟩ : Shape).Idx → EReal) (W2 : (⟨2, ![256, 448]⟩ : Shape).Idx → EReal) (b2 : (⟨1, ![256]⟩ : Shape).Idx → EReal)

/-- The coarse head of every sample: on the first half of its new hidden state. -/
def coarseArr : (⟨2, ![16384, 256]⟩ : Shape).Idx → EReal := fun i =>
  head (lo (hiddenAt y h cc Rw Icw Ifw bu br be (i 0))) (matT (mat W1)) (vec b1) (matT (mat W2)) (vec b2) (i 1)

/-- The fine head of every sample: on the second half of its new hidden state. -/
def fineArr : (⟨2, ![16384, 256]⟩ : Shape).Idx → EReal := fun i =>
  head (hi (hiddenAt y h cc Rw Icw Ifw bu br be (i 0))) (matT (mat W1)) (vec b1) (matT (mat W2)) (vec b2) (i 1)

end

/-- An array whose every row is given is given. -/
theorem arr_ext {R n : Nat} (A B : (⟨2, ![R, n]⟩ : Shape).Idx → EReal) (hrow : ∀ p : Fin R, row A p = row B p) : A = B := by
  funext i
  rw [eq_ix2 i]
  exact congrFun (hrow (i 0)) (i 1)

end Cert.Cell

end
-- ==== Proof.KernelValue.lean ====
/-
  The kernel's three result arrays after the run.

  What point `t` writes back to an output window is the body's block, whose row `p` is the cell's function of row `p` of
  the point's sample blocks and of the weight blocks; those are row `256 t + p` of the sample arrays and the weights as
  the host prepared them, so the block is the whole-array function read through point `t`'s rectangle. The 64 blocks tile
  each array, so each array ends holding its whole-array function of the arguments.
-/
import proofs.«137769_j54142357734073_1_alg».proof.Proof.Gen.KernelIdeal.Value
import proofs.«137769_j54142357734073_1_alg».proof.Proof.KernelRows
import proofs.«137769_j54142357734073_1_alg».proof.Proof.KernelBlocks
import proofs.«137769_j54142357734073_1_alg».proof.Proof.CellArrays

set_option maxRecDepth 16384

noncomputable section

namespace Cert.KernelIdeal.Hand

open Cert.KernelIdeal Cert.KernelIdeal.Gen Cert.KernelIdeal.Value Idealize.ShloMosaic Idealize.ShloMosaic.TcCoe
  Idealize.SL.Sem Idealize.ShloMosaic.Rowwise Cert.Cell
open Idealize.ShloMosaic.Pipeline (Dat)

variable (m : (ℓ : Loc nD τ sig) → Buf (Elt Ideal) ℓ) (ρ : Dev nD → PrngReg)

/-- The new hidden state of every sample, from the launch contents of the arguments. -/
abbrev hiddenOf (c : Dev nD) : S16384x896.Idx → EReal := hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- The coarse head of every sample. -/
abbrev coarseOf (c : Dev nD) : S16384x256.Idx → EReal :=
  coarseArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
/-- The fine head of every sample. -/
abbrev fineOf (c : Dev nD) : S16384x256.Idx → EReal :=
  fineArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16))

/-- Point `t` writes back block `t` of the new hidden state. -/
theorem flushed25_eq (c : Dev nD) (t : Fin cfg0.N) :
    (dats m 0 c).flushed 25 t = ((cfg0.win 25).blk t).view.read (Elt Ideal) (hiddenOf m c) := by
  rw [flushed25]
  refine Blocks.cut25 t _ _ fun p => ?_
  refine (Rows.row_out25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p).trans ?_
  rw [Blocks.row_blk0 m c t p, Blocks.row_blk1 m c t p, Blocks.row_blk2 m c t p, Blocks.wmat3 m c t, Blocks.wmat4 m c t, Blocks.wmat5 m c t, Blocks.wmat6 m c t, Blocks.wmat7 m c t, Blocks.wmat8 m c t, Blocks.wmat9 m c t, Blocks.wmat10 m c t, Blocks.wmat11 m c t, Blocks.wbias12 m c t, Blocks.wbias13 m c t, Blocks.wbias14 m c t]
  rfl

/-- Point `t` writes back block `t` of the coarse head. -/
theorem flushed23_eq (c : Dev nD) (t : Fin cfg0.N) :
    (dats m 0 c).flushed 23 t = ((cfg0.win 23).blk t).view.read (Elt Ideal) (coarseOf m c) := by
  rw [flushed23]
  refine Blocks.cut23 t _ _ fun p => ?_
  refine (Rows.row_out23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p).trans ?_
  rw [Blocks.row_blk0 m c t p, Blocks.row_blk1 m c t p, Blocks.row_blk2 m c t p, Blocks.wmat3 m c t, Blocks.wmat4 m c t, Blocks.wmat5 m c t, Blocks.wmat6 m c t, Blocks.wmat7 m c t, Blocks.wmat8 m c t, Blocks.wmat9 m c t, Blocks.wmat10 m c t, Blocks.wmat11 m c t, Blocks.wbias12 m c t, Blocks.wbias13 m c t, Blocks.wbias14 m c t, Blocks.wmat15 m c t, Blocks.wbias16 m c t, Blocks.wmat17 m c t, Blocks.wbias18 m c t]
  rfl

/-- Point `t` writes back block `t` of the fine head. -/
theorem flushed24_eq (c : Dev nD) (t : Fin cfg0.N) :
    (dats m 0 c).flushed 24 t = ((cfg0.win 24).blk t).view.read (Elt Ideal) (fineOf m c) := by
  rw [flushed24]
  refine Blocks.cut24 t _ _ fun p => ?_
  refine (Rows.row_out24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p).trans ?_
  rw [Blocks.row_blk0 m c t p, Blocks.row_blk1 m c t p, Blocks.row_blk2 m c t p, Blocks.wmat3 m c t, Blocks.wmat4 m c t, Blocks.wmat5 m c t, Blocks.wmat6 m c t, Blocks.wmat7 m c t, Blocks.wmat8 m c t, Blocks.wmat9 m c t, Blocks.wmat10 m c t, Blocks.wmat11 m c t, Blocks.wbias12 m c t, Blocks.wbias13 m c t, Blocks.wbias14 m c t, Blocks.wmat19 m c t, Blocks.wbias20 m c t, Blocks.wmat21 m c t, Blocks.wbias22 m c t]
  rfl

/-- The three arrays after the run: the blocks tile them. -/
theorem final25 (c : Dev nD) : (dats m 0 c).arrAt 25 cfg0.N = hiddenOf m c :=
  (dats m 0 c).arrAt_eq_of_cover 25 (hiddenOf m c) (fun t _ => flushed25_eq m c t) Blocks.cover25

theorem final23 (c : Dev nD) : (dats m 0 c).arrAt 23 cfg0.N = coarseOf m c :=
  (dats m 0 c).arrAt_eq_of_cover 23 (coarseOf m c) (fun t _ => flushed23_eq m c t) Blocks.cover23

theorem final24 (c : Dev nD) : (dats m 0 c).arrAt 24 cfg0.N = fineOf m c :=
  (dats m 0 c).arrAt_eq_of_cover 24 (fineOf m c) (fun t _ => flushed24_eq m c t) Blocks.cover24

/-- The run, read: each result array at its whole-array function of the arguments, the arguments unchanged. -/
theorem run : θ_run defs (onTc (τ := τ) (main (F := Ideal))) ⟨m, fun _ => 0, ρ⟩ fun r => ∀ c : Dev nD,
      r.2.mem ((c : Thread nD τ).loc main_v42_0) = coarseOf m c
      ∧ r.2.mem ((c : Thread nD τ).loc main_v42_1) = fineOf m c
      ∧ r.2.mem ((c : Thread nD τ).loc main_v42_2) = hiddenOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final23 m c), (h c).2.1.trans (final24 m c),
      (h c).2.2.1.trans (final25 m c), (h c).2.2.2⟩)
    (run_blocks m ρ)

end Cert.KernelIdeal.Hand

end
-- ==== Proof.ReferenceRows.lean ====
/-
  The reference, one sample at a time.

  The reference computes every sample of the batch at once, with each weight `[out, in]` applied as `x · Wᵀ` and the
  three gates cut out of the product afterwards as blocks of columns. A block of columns of `x · Wᵀ` is `x` times the
  transpose of the matching block of `W`'s rows, so row `b` of each result is the cell's function of row `b` of the
  three sample arrays. The reference spells the logistic function as `1 / (1 + exp(-x))`, which is the logistic
  function on every extended real.
-/
import proofs.«137769_j54142357734073_1_alg».proof.Proof.Gen.ReferenceIdeal.Read
import proofs.«137769_j54142357734073_1_alg».proof.Proof.CellSpec

set_option maxRecDepth 16384

noncomputable section

namespace Cert.ReferenceIdeal.Rows

open Cert.ReferenceIdeal Cert.ReferenceIdeal.Gen Cert.ReferenceIdeal.Read Idealize.ShloMosaic Idealize.ShloMosaic.TcCoe
  Idealize.ShloMosaic.Rowwise Cert.Cell

/-! ## The five products' dimension numbers are the plain ones -/

theorem dims_h : dot_S16384x896_S896x2688_S16384x2688_1_0_0_1_n_n = DotDims.plain 16384 896 2688 := rfl
theorem dims_y : dot_S16384x2_S2x1344_S16384x1344_1_0_0_1_n_n = DotDims.plain 16384 2 1344 := rfl
theorem dims_f : dot_S16384x3_S3x1344_S16384x1344_1_0_0_1_n_n = DotDims.plain 16384 3 1344 := rfl
theorem dims_a : dot_S16384x448_S448x448_S16384x448_1_0_0_1_n_n = DotDims.plain 16384 448 448 := rfl
theorem dims_b : dot_S16384x448_S448x256_S16384x256_1_0_0_1_n_n = DotDims.plain 16384 448 256 := rfl

/-- The reference's spelling of the logistic function, with the float word of one. -/
theorem logistic_word (x : EReal) :
    Ideal.div (Ideal.ofBits .f32 0x3F800000#32) (Ideal.ofBits .f32 0x3F800000#32 + Ideal.exp (-x)) = Ideal.logistic x :=
  logistic_spelt x

/-! ## The layout lemmas at this program's shapes -/

/-- The float one laid over the batch: a constant row. -/
theorem one_row (b : Fin 16384) :
    row (broadcastInDim S16384x896 ![] bcast_S_S16384x896 (constant (F := Ideal) S_ .f32 0x3F800000#32)) b
      = fun _ => Ideal.ofBits .f32 0x3F800000#32 := by
  rw [row_scalarConstant]

/-- A bias vector laid as one row and repeated down the batch: every row is the vector. -/
theorem bias896 (x : (⟨S896, .f32⟩ : BufTy).Contents (Elt Ideal)) (b : Fin 16384) :
    row (broadcastInDim S16384x896 ![0, 1] bcast_S1x896_S16384x896_0_1 (broadcastInDim S1x896 ![1] bcast_S896_S1x896_1 x)) b
      = vec x := by
  rw [row_broadcastInDim_row, row_vector_as_row]

theorem bias448 (x : (⟨S448, .f32⟩ : BufTy).Contents (Elt Ideal)) (b : Fin 16384) :
    row (broadcastInDim S16384x448 ![0, 1] bcast_S1x448_S16384x448_0_1 (broadcastInDim S1x448 ![1] bcast_S448_S1x448_1 x)) b
      = vec x := by
  rw [row_broadcastInDim_row, row_vector_as_row]

theorem bias256 (x : (⟨S256, .f32⟩ : BufTy).Contents (Elt Ideal)) (b : Fin 16384) :
    row (broadcastInDim S16384x256 ![0, 1] bcast_S1x256_S16384x256_0_1 (broadcastInDim S1x256 ![1] bcast_S256_S1x256_1 x)) b
      = vec x := by
  rw [row_broadcastInDim_row, row_vector_as_row]

/-- The transposed weights, by coordinates. -/
theorem tr_rw (x : (⟨S2688x896, .f32⟩ : BufTy).Contents (Elt Ideal)) :
    mat (transpose S896x2688 [1, 0] x transposes_S2688x896_S896x2688_1_0) = matT (mat x) := by rw [mat_transpose]
theorem tr_icw (x : (⟨S1344x2, .f32⟩ : BufTy).Contents (Elt Ideal)) :
    mat (transpose S2x1344 [1, 0] x transposes_S1344x2_S2x1344_1_0) = matT (mat x) := by rw [mat_transpose]
theorem tr_ifw (x : (⟨S1344x3, .f32⟩ : BufTy).Contents (Elt Ideal)) :
    mat (transpose S3x1344 [1, 0] x transposes_S1344x3_S3x1344_1_0) = matT (mat x) := by rw [mat_transpose]
theorem tr_sq (x : (⟨S448x448, .f32⟩ : BufTy).Contents (Elt Ideal)) :
    mat (transpose S448x448 [1, 0] x transposes_S448x448_S448x448_1_0) = matT (mat x) := by rw [mat_transpose]
theorem tr_out (x : (⟨S256x448, .f32⟩ : BufTy).Contents (Elt Ideal)) :
    mat (transpose S448x256 [1, 0] x transposes_S256x448_S448x256_1_0) = matT (mat x) := by rw [mat_transpose]

/-- The rectifier: a maximum with the float zero laid over the batch. -/
theorem relu_row (A : (⟨S16384x448, .f32⟩ : BufTy).Contents (Elt Ideal)) (b : Fin 16384) :
    row (maximumf A (broadcastInDim S16384x448 ![] bcast_S_S16384x448 (constant (F := Ideal) S_ .f32 0x00000000#32))) b
      = floorAt zero (row A b) := by
  rw [row_maximumf_scalarConstant]

section

variable (x0 : (⟨S16384x2, .f32⟩ : BufTy).Contents (Elt Ideal)) (x1 : (⟨S16384x896, .f32⟩ : BufTy).Contents (Elt Ideal)) (x2 : (⟨S16384x1, .f32⟩ : BufTy).Contents (Elt Ideal))
  (x3 : (⟨S2688x896, .f32⟩ : BufTy).Contents (Elt Ideal)) (x4 : (⟨S1344x2, .f32⟩ : BufTy).Contents (Elt Ideal)) (x5 : (⟨S1344x3, .f32⟩ : BufTy).Contents (Elt Ideal)) (x6 x7 x8 : (⟨S896, .f32⟩ : BufTy).Contents (Elt Ideal))

/-- Row `b` of the reference's new hidden state is the cell's function of sample `b`. -/
theorem row_hidden (b : Fin 16384) :
    row (val_main_v49 (F := Ideal) x0 x1 x2 x3 x4 x5 x6 x7 x8) b
      = hidden (row x1 b) (row x0 b) (row x2 b)
          (rowsT 0 896 (by omega) (mat x3)) (rowsT 896 896 (by omega) (mat x3)) (rowsT 1792 896 (by omega) (mat x3))
          (rowsT 0 448 (by omega) (mat x4)) (rowsT 448 448 (by omega) (mat x4)) (rowsT 896 448 (by omega) (mat x4))
          (rowsT 0 448 (by omega) (mat x5)) (rowsT 448 448 (by omega) (mat x5)) (rowsT 896 448 (by omega) (mat x5))
          (vec x6) (vec x7) (vec x8) := by
  unfold val_main_v49 val_main_v48 val_main_v47 val_main_v46 val_main_cst_3 val_main_v45 val_main_v44 val_main_v43
    val_main_v42 val_main_v41 val_main_v40 val_main_v39 val_main_v38 val_main_v37 val_main_cst_2 val_main_v36
    val_main_v35 val_main_cst_1 val_main_v34 val_main_v33 val_main_v32 val_main_v31 val_main_v30 val_main_v29
    val_main_v28 val_main_v27 val_main_cst_0 val_main_v26 val_main_v25 val_main_cst val_main_v24 val_main_v23
    val_main_v22 val_main_v21 val_main_v20 val_main_v19 val_main_v18 val_main_v17 val_main_v16 val_main_v15
    val_main_v14 val_main_v13 val_main_v12 val_main_v11 val_main_v10 val_main_v9 val_main_v8 val_main_v7 val_main_v6
    val_main_v5 val_main_v4 val_main_v3 val_main_v2 val_main_v1 val_main_v0
  simp only [Host.dotGeneral, dims_h, dims_y, dims_f, row_addf, row_mulf, row_subf, row_hostDivf, row_hostNegf,
    row_hostExp, row_hostTanh, row_dotGeneral, row_slice, row_concat]
  rw [bias896 x6 b, bias896 x7 b, bias896 x8 b, one_row b, tr_rw x3, tr_icw x4, tr_ifw x5]
  simp only [logistic_word]
  rfl

variable (x9 : (⟨S448x448, .f32⟩ : BufTy).Contents (Elt Ideal)) (x10 : (⟨S448, .f32⟩ : BufTy).Contents (Elt Ideal)) (x11 : (⟨S256x448, .f32⟩ : BufTy).Contents (Elt Ideal)) (x12 : (⟨S256, .f32⟩ : BufTy).Contents (Elt Ideal))
  (x13 : (⟨S448x448, .f32⟩ : BufTy).Contents (Elt Ideal)) (x14 : (⟨S448, .f32⟩ : BufTy).Contents (Elt Ideal)) (x15 : (⟨S256x448, .f32⟩ : BufTy).Contents (Elt Ideal)) (x16 : (⟨S256, .f32⟩ : BufTy).Contents (Elt Ideal))

/-- Row `b` of the reference's coarse output: the head on the first half of sample `b`'s new hidden state. -/
theorem row_coarse (b : Fin 16384) :
    row (val_main_v62 (F := Ideal) x0 x1 x2 x3 x4 x5 x6 x7 x8 x9 x10 x11 x12) b
      = head (lo (row (val_main_v49 (F := Ideal) x0 x1 x2 x3 x4 x5 x6 x7 x8) b))
          (matT (mat x9)) (vec x10) (matT (mat x11)) (vec x12) := by
  unfold val_main_v62 val_main_v61 val_main_v60 val_main_v59 val_main_v58 val_main_v57 val_main_call0_v0
    val_main_call0_cst val_main_v56 val_main_v55 val_main_v54 val_main_v53 val_main_v52 val_main_v50
  simp only [Host.dotGeneral, dims_a, dims_b, row_addf, row_dotGeneral, row_slice]
  rw [relu_row]
  simp only [Host.dotGeneral, dims_a, dims_b, row_addf, row_dotGeneral, row_slice]
  rw [bias448 x10 b, bias256 x12 b, tr_sq x9, tr_out x11]
  rfl

/-- Row `b` of the reference's fine output: the head on the second half of sample `b`'s new hidden state. -/
theorem row_fine (b : Fin 16384) :
    row (val_main_v73 (F := Ideal) x0 x1 x2 x3 x4 x5 x6 x7 x8 x13 x14 x15 x16) b
      = head (hi (row (val_main_v49 (F := Ideal) x0 x1 x2 x3 x4 x5 x6 x7 x8) b))
          (matT (mat x13)) (vec x14) (matT (mat x15)) (vec x16) := by
  unfold val_main_v73 val_main_v72 val_main_v71 val_main_v70 val_main_v69 val_main_v68 val_main_call1_v0
    val_main_call1_cst val_main_v67 val_main_v66 val_main_v65 val_main_v64 val_main_v63 val_main_v51
  simp only [Host.dotGeneral, dims_a, dims_b, row_addf, row_dotGeneral, row_slice]
  rw [relu_row]
  simp only [Host.dotGeneral, dims_a, dims_b, row_addf, row_dotGeneral, row_slice]
  rw [bias448 x14 b, bias256 x16 b, tr_sq x13, tr_out x15]
  rfl

end

end Cert.ReferenceIdeal.Rows

end
-- ==== Proof.ReferenceArrays.lean ====
/-
  The reference's three results as whole arrays: each is the cell's whole-array function of the arguments, because
  every row is.
-/
import proofs.«137769_j54142357734073_1_alg».proof.Proof.ReferenceRows
import proofs.«137769_j54142357734073_1_alg».proof.Proof.CellArrays

set_option maxRecDepth 16384

noncomputable section

namespace Cert.ReferenceIdeal.Arrays

open Cert.ReferenceIdeal Cert.ReferenceIdeal.Gen Cert.ReferenceIdeal.Read Idealize.ShloMosaic Idealize.ShloMosaic.TcCoe
  Idealize.ShloMosaic.Rowwise Cert.Cell

variable (x0 : (⟨S16384x2, .f32⟩ : BufTy).Contents (Elt Ideal)) (x1 : (⟨S16384x896, .f32⟩ : BufTy).Contents (Elt Ideal)) (x2 : (⟨S16384x1, .f32⟩ : BufTy).Contents (Elt Ideal))
  (x3 : (⟨S2688x896, .f32⟩ : BufTy).Contents (Elt Ideal)) (x4 : (⟨S1344x2, .f32⟩ : BufTy).Contents (Elt Ideal)) (x5 : (⟨S1344x3, .f32⟩ : BufTy).Contents (Elt Ideal)) (x6 x7 x8 : (⟨S896, .f32⟩ : BufTy).Contents (Elt Ideal))
  (x9 : (⟨S448x448, .f32⟩ : BufTy).Contents (Elt Ideal)) (x10 : (⟨S448, .f32⟩ : BufTy).Contents (Elt Ideal)) (x11 : (⟨S256x448, .f32⟩ : BufTy).Contents (Elt Ideal)) (x12 : (⟨S256, .f32⟩ : BufTy).Contents (Elt Ideal))
  (x13 : (⟨S448x448, .f32⟩ : BufTy).Contents (Elt Ideal)) (x14 : (⟨S448, .f32⟩ : BufTy).Contents (Elt Ideal)) (x15 : (⟨S256x448, .f32⟩ : BufTy).Contents (Elt Ideal)) (x16 : (⟨S256, .f32⟩ : BufTy).Contents (Elt Ideal))

theorem hidden_eq : val_main_v49 (F := Ideal) x0 x1 x2 x3 x4 x5 x6 x7 x8 = hiddenArr x0 x1 x2 x3 x4 x5 x6 x7 x8 :=
  arr_ext _ _ fun b => (Rows.row_hidden x0 x1 x2 x3 x4 x5 x6 x7 x8 b).trans rfl

theorem coarse_eq : val_main_v62 (F := Ideal) x0 x1 x2 x3 x4 x5 x6 x7 x8 x9 x10 x11 x12
    = coarseArr x0 x1 x2 x3 x4 x5 x6 x7 x8 x9 x10 x11 x12 :=
  arr_ext _ _ fun b => by
    rw [Rows.row_coarse, Rows.row_hidden]
    rfl

theorem fine_eq : val_main_v73 (F := Ideal) x0 x1 x2 x3 x4 x5 x6 x7 x8 x13 x14 x15 x16
    = fineArr x0 x1 x2 x3 x4 x5 x6 x7 x8 x13 x14 x15 x16 :=
  arr_ext _ _ fun b => by
    rw [Rows.row_fine, Rows.row_hidden]
    rfl

end Cert.ReferenceIdeal.Arrays

end
-- ==== Proof.lean ====
/-
  A recurrent cell with two output heads, tiled over the batch, against the same cell on the whole batch.

  Both programs compute, for every sample `b` of 16384, a gated recurrent step and two small dense heads:

      u = σ(h·Wruᵀ + (y·Wcuᵀ ‖ f·Wfuᵀ) + bu),   r = σ(h·Wrrᵀ + (y·Wcrᵀ ‖ f·Wfrᵀ) + br),
      e = tanh(r ⊙ (h·Wreᵀ) + (y·Wceᵀ ‖ f·Wfeᵀ) + be),   hidden = u ⊙ h + (1 − u) ⊙ e,
      coarse = max(hidden[:448]·O1ᵀ + b1, 0)·O2ᵀ + b2,   fine = max(hidden[448:]·O3ᵀ + b3, 0)·O4ᵀ + b4,

  with `f = (y, cc)` and the three gates' weights the three blocks of rows of the stacked weights. The kernel handles
  256 samples per grid point with the weights cut, transposed and narrowed to bf16 beforehand on the host; the reference
  multiplies by the whole transposed weight and cuts the gates out of the product, and spells the logistic function as
  `1 / (1 + exp(−x))`. At the ideal values a change of float format is the identity, a product into a zero accumulator and
  the host's product are the same sum over the shared axis, a block of columns of `x·Wᵀ` is `x` times the transpose of
  the matching block of rows of `W`, and `1 / (1 + exp(−x))` is the logistic function on every extended real: each
  sample's results are one function of that sample's inputs and the weights on both sides (`Cert.Cell`), with the same
  bracketing of every sum and product, so no finiteness of the inputs is needed.

  The kernel's side: row `p` of each block the body stores is the cell's function of row `p` of its input blocks
  (KernelRows); those blocks are rows `256 t + p` of the sample arrays and the weights as prepared (KernelBlocks,
  KernelWeightsA/B); the blocks tile the arrays (KernelValue). The reference's side: row `b` of each result is the
  same function (ReferenceRows, ReferenceArrays). The two idealized programs' frames are the generated ones; the
  reference's frame is its generated run with the results dropped; the ideal pass rewrote nothing.
-/
import proofs.«137769_j54142357734073_1_alg».proof.Defs
import proofs.«137769_j54142357734073_1_alg».proof.Proof.Gen.Kernel
import proofs.«137769_j54142357734073_1_alg».proof.Proof.Gen.Kernel.Frame
import proofs.«137769_j54142357734073_1_alg».proof.Proof.Gen.KernelIdeal
import proofs.«137769_j54142357734073_1_alg».proof.Proof.Gen.KernelIdeal.Frame
import proofs.«137769_j54142357734073_1_alg».proof.Proof.Gen.KernelIdeal.Value
import proofs.«137769_j54142357734073_1_alg».proof.Proof.Gen.ReferenceIdeal
import proofs.«137769_j54142357734073_1_alg».proof.Proof.Gen.ReferenceIdeal.Run
import proofs.«137769_j54142357734073_1_alg».proof.Proof.Gen.ReferenceIdeal.Read
import proofs.«137769_j54142357734073_1_alg».proof.Proof.Gen.Pre_finite_inputs
import proofs.«137769_j54142357734073_1_alg».proof.Proof.KernelValue
import proofs.«137769_j54142357734073_1_alg».proof.Proof.ReferenceArrays
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- From memories that agree on the arguments both programs end with each result at the cell's whole-array function of
    the arguments. -/
theorem algebraic : Cert.algebraic_KernelIdeal_ReferenceIdeal := by
  intro m ρ m' ρ' _ hagree
  refine ⟨fun c => Cert.KernelIdeal.Hand.coarseOf m c, fun c => Cert.KernelIdeal.Hand.fineOf m c,
    fun c => Cert.KernelIdeal.Hand.hiddenOf m c, Cert.KernelIdeal.Hand.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16⟩ := hagree c
  refine ⟨(h c).1.trans ?_, (h c).2.1.trans ?_, (h c).2.2.1.trans ?_, (h c).2.2.2⟩
  · rw [Cert.ReferenceIdeal.Read.val_main_v62_eq, Cert.ReferenceIdeal.Arrays.coarse_eq,
      a0, a1, a2, a3, a4, a5, a6, a7, a8, a9, a10, a11, a12]
  · rw [Cert.ReferenceIdeal.Read.val_main_v73_eq, Cert.ReferenceIdeal.Arrays.fine_eq,
      a0, a1, a2, a3, a4, a5, a6, a7, a8, a13, a14, a15, a16]
  · rw [Cert.ReferenceIdeal.Read.val_main_v49_eq, Cert.ReferenceIdeal.Arrays.hidden_eq,
      a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
